-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg14 : FVec F S1024 .f32) (main_arg15 : FVec F S1024x1024 .f32) (main_arg16 : FVec F S1024x1024 .f32) (main_arg17 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024x1024 .f32) (main_arg13 : FVec F S1024x1024 .f32) (main_arg14 : FVec F S1024 .f32) (main_arg15 : FVec F S1024x1024 .f32) (main_arg16 : FVec F S1024x1024 .f32) (main_arg17 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_arg15 : FVec F S1024x1024 .f32) (main_arg16 : FVec F S1024x1024 .f32) (main_arg17 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_arg15 : FVec F S1024x1024 .f32) (main_arg16 : FVec F S1024x1024 .f32) (main_arg17 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_arg15 : FVec F S1024x1024 .f32) (main_arg16 : FVec F S1024x1024 .f32) (main_arg17 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x1024 : Shape := ⟨2, ![1, 1024]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 29
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024, .f32⟩
  | .hbm, ⟨18, _⟩ => ⟨S1024x4096, .f32⟩
  | .hbm, ⟨19, _⟩ => ⟨S1024x4096, .f32⟩
  | .hbm, ⟨20, _⟩ => ⟨S4096, .f32⟩
  | .hbm, ⟨21, _⟩ => ⟨S1024x1024, .bf16⟩
  | .hbm, ⟨22, _⟩ => ⟨S1024x1024, .bf16⟩
  | .hbm, ⟨23, _⟩ => ⟨S1024x4096, .bf16⟩
  | .hbm, ⟨24, _⟩ => ⟨S1024x4096, .bf16⟩
  | .hbm, ⟨25, _⟩ => ⟨S1x1024, .f32⟩
  | .hbm, ⟨26, _⟩ => ⟨S1x4096, .f32⟩
  | .hbm, ⟨27, _⟩ => ⟨S8192x1024, .f32⟩
  | .hbm, ⟨28, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S1024x4096, .bf16⟩
  | .local _ .vmem, ⟨11, _⟩ => ⟨S1x4096, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bitsLt_bf16_f32 : FTy.bits .bf16 < FTy.bits .f32
  shapeCasts_S1024_S1x1024 : S1024.ShapeCasts S1x1024
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x1024_S128x1024_1_0_0_1_n_n_wf : DotDims.WF S128x1024 S1024x1024 S128x1024 [1] [0] [0] [1] [] []
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x4096.size a ≤ S1024x4096.size a
  hwx0_7 : ∀ i : grid0.Coords, EltTy.bits .bf16 = 32 ∨ (Rect.block (s := S1024x4096) S1024x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S8192x1024.size a
  hwx0_9 : ∀ i : grid0.Coords, EltTy.bits .f32 = 32 ∨ (Rect.block (s := S8192x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S8192x1024.size a
  hwx0_10 : ∀ i : grid0.Coords, EltTy.bits .f32 = 32 ∨ (Rect.block (s := S8192x1024) S128x1024.size (cc0_transform_10 i) (hinb0_10 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S128x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x4096, .f32⟩
  | .hbm, ⟨26, _⟩ => ⟨S1024x4096, .f32⟩
  | .hbm, ⟨27, _⟩ => ⟨S4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  bcast_S_S8192x1024 : S_.BroadcastsInDim S8192x1024 (![] : Fin 0 → Fin S8192x1024.rank)
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  dot_S8192x1024_S1024x1024_S8192x1024_1_0_0_1_n_n_wf : DotDims.WF S8192x1024 S1024x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.FrameKernel.lean ====
/-
  The kernel program, read at any float instance, runs to the end, faults nowhere and leaves its eighteen argument
  arrays as they were.

  The program is nine host operations (three joins of the gate weights and biases, four changes of float format,
  two reshapes of the biases to one-row matrices) followed by one pipelined region over 64 grid points.  At grid
  point t the region stages rows 128·t … 128·t+127 of the three batch arrays (windows 0, 1, 2), the six weight
  and bias arrays whole (windows 3 … 8, the same block at every point, so fetched once), runs the body, and
  writes the two result blocks (windows 9, 10) back to rows 128·t … of the two result arrays.

  The body only loads its nine input blocks, computes, and stores each result block whole (it also loads each
  result buffer once before overwriting it, a value it never uses).  So after the body every input buffer still
  holds its block, and each result buffer holds the body's stored value as a function of the input blocks:
  `outH` (hidden state) and `outC` (cell state) below.  With that as the region's proof data the library's
  frame theorem for one region after a straight line of host operations gives the run; the argument arrays are
  read off its post: the three staged ones through their windows, the other fifteen because no host operation
  and no window writes them.
-/
import proofs.«155157_j13288628814422_1_alg».proof.Proof.Gen.Kernel.Launch
import proofs.«155157_j13288628814422_1_alg».proof.Proof.Gen.Kernel.Skeleton
import proofs.«155157_j13288628814422_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the nine host operations. -/
abbrev V (c : Dev nD) (b : Ref sig .tc) : Buf (Elt F) ((c : Thread nD τ).loc b) := StableHlo.after hostOps0 (fun b => m (c, b)) b

/-- No host operation of the prefix allocates a buffer at contents of the machine's choosing. -/
theorem hostOps0_fresh : (hostOps0 : List (HloOp τ sig (Elt F))).Forall fun op => op.fresh = ∅ := by
  simp only [List.Forall]; repeat' constructor

/-- The program is the host prefix, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host prefix writes the nine buffers `main_v0 … main_v8` and nothing else: any other buffer is found by the
    region as launched. -/
theorem V_of_not_written (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The whole of each kind of buffer the body touches, as the rectangle its loads and stores name. -/
abbrev rB : Rect S128x1024 := Rect.unit (s := S128x1024) ![0, 0] S128x1024.size inb_S128x1024_S128x1024_0_0
abbrev rW : Rect S1024x1024 := Rect.unit (s := S1024x1024) ![0, 0] S1024x1024.size inb_S1024x1024_S1024x1024_0_0
abbrev rV : Rect S1x1024 := Rect.unit (s := S1x1024) ![0, 0] S1x1024.size inb_S1x1024_S1x1024_0_0
abbrev rG : Rect S1024x4096 := Rect.unit (s := S1024x4096) ![0, 0] S1024x4096.size inb_S1024x4096_S1024x4096_0_0
abbrev rU : Rect S1x4096 := Rect.unit (s := S1x4096) ![0, 0] S1x4096.size inb_S1x4096_S1x4096_0_0

section Stored

variable (x0 x1 x2 : Vec F S128x1024 .f32) (x3 x4 : Vec F S1024x1024 .bf16) (x5 : Vec F S1x1024 .f32)
  (x6 x7 : Vec F S1024x4096 .bf16) (x8 : Vec F S1x4096 .f32)

/-- The new cell-state block the body computes from its nine input blocks. -/
def valC : FVec F S128x1024 .f32 :=
  k0_pay1 (View.ld x2 rB)
    (k0_pay4 (View.ld x0 rB) (View.ld x1 rB) (View.ld x3 rW) (View.ld x4 rW) (View.ld x5 rV) (View.ld x6 rG) (View.ld x7 rG) (View.ld x8 rU))
    (k0_pay5 (View.ld x0 rB) (View.ld x1 rB) (View.ld x3 rW) (View.ld x4 rW) (View.ld x5 rV) (View.ld x6 rG) (View.ld x7 rG) (View.ld x8 rU))
    (k0_pay7 (View.ld x0 rB) (View.ld x1 rB) (View.ld x3 rW) (View.ld x4 rW) (View.ld x5 rV) (View.ld x6 rG) (View.ld x7 rG) (View.ld x8 rU))

/-- The new hidden-state block the body computes from its nine input blocks. -/
def valH : FVec F S128x1024 .f32 :=
  k0_pay2 (View.ld x2 rB)
    (k0_pay4 (View.ld x0 rB) (View.ld x1 rB) (View.ld x3 rW) (View.ld x4 rW) (View.ld x5 rV) (View.ld x6 rG) (View.ld x7 rG) (View.ld x8 rU))
    (k0_pay5 (View.ld x0 rB) (View.ld x1 rB) (View.ld x3 rW) (View.ld x4 rW) (View.ld x5 rV) (View.ld x6 rG) (View.ld x7 rG) (View.ld x8 rU))
    (k0_pay6 (View.ld x0 rB) (View.ld x1 rB) (View.ld x3 rW) (View.ld x4 rW) (View.ld x5 rV) (View.ld x6 rG) (View.ld x7 rG) (View.ld x8 rU))
    (k0_pay7 (View.ld x0 rB) (View.ld x1 rB) (View.ld x3 rW) (View.ld x4 rW) (View.ld x5 rV) (View.ld x6 rG) (View.ld x7 rG) (View.ld x8 rU))

/-- The hidden-state buffer after the body: its one whole-block store. -/
def outH : Vec F S128x1024 .f32 := View.canon [⟨rB, valH x0 x1 x2 x3 x4 x5 x6 x7 x8⟩]

/-- The cell-state buffer after the body: its one whole-block store. -/
def outC : Vec F S128x1024 .f32 := View.canon [⟨rB, valC x0 x1 x2 x3 x4 x5 x6 x7 x8⟩]

end Stored

/-- One store of the whole block covers the block. -/
theorem cover_whole (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

/-! ## The body's triple -/

set_option maxHeartbeats 2000000 in
/-- On whole staging buffers, the nine inputs' at contents `x0 … x8` and the two results' at anything, the body runs to
    its continuation with the inputs' buffers as they were and the results' at `outH` and `outC` of the inputs. -/
theorem sound_kernel (c : Dev nD) (E : Set ℕ) (i : grid0.Coords)
    (a1 : Memref sig .tc .vmem S128x1024 .f32) (h1 : a1.IsWhole) (a2 : Memref sig .tc .vmem S128x1024 .f32) (h2 : a2.IsWhole)
    (a3 : Memref sig .tc .vmem S128x1024 .f32) (h3 : a3.IsWhole) (a4 : Memref sig .tc .vmem S1024x1024 .bf16) (h4 : a4.IsWhole)
    (a5 : Memref sig .tc .vmem S1024x1024 .bf16) (h5 : a5.IsWhole) (a6 : Memref sig .tc .vmem S1x1024 .f32) (h6 : a6.IsWhole)
    (a7 : Memref sig .tc .vmem S1024x4096 .bf16) (h7 : a7.IsWhole) (a8 : Memref sig .tc .vmem S1024x4096 .bf16) (h8 : a8.IsWhole)
    (a9 : Memref sig .tc .vmem S1x4096 .f32) (h9 : a9.IsWhole) (a10 : Memref sig .tc .vmem S128x1024 .f32) (h10 : a10.IsWhole)
    (a11 : Memref sig .tc .vmem S128x1024 .f32) (h11 : a11.IsWhole)
    (x0 x1 x2 : Vec F S128x1024 .f32) (x3 x4 : Vec F S1024x1024 .bf16) (x5 : Vec F S1x1024 .f32)
    (x6 x7 : Vec F S1024x4096 .bf16) (x8 : Vec F S1x4096 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ (∃ d, owns (c : Thread nD τ) a10 fullShare d) ∗ (∃ d, owns (c : Thread nD τ) a11 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare (outH x0 x1 x2 x3 x4 x5 x6 x7 x8)
            ∗ owns (c : Thread nD τ) a11 fullShare (outC x0 x1 x2 x3 x4 x5 x6 x7 x8)) -∗ K ⟨⟩))
      ⊢ wp frame (wpE (defs₀ (F := F)) Variants.none c none) E (cc0__mlstm_kernel i a1 h1 a2 h2 a3 h3 a4 h4 a5 h5 a6 h6 a7 h7 a8 h8 a9 h9 a10 h10 a11 h11) K := by
  simp only [cc0__mlstm_kernel_eq_skeleton]; unfold cc0__mlstm_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, Hk⟩
  subst e0 e1 e2 e3 e4 e5 e6 e7 e8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    try dsimp only
    exact View.read_writes_eq_canon _ _ _ (cover_whole _)
  iexists _; isplitr
  swap; · iexact H10
  ipureintro
  try dsimp only
  exact View.read_writes_eq_canon _ _ _ (cover_whole _)

/-! ## The region's proof data -/

/-- On core `c`: the arrays as the region finds them; after the body at point `t` each input buffer still at its
    block, the hidden-state buffer at `outH` and the cell-state buffer at `outC` of the nine input blocks; the
    invariant is the plain one (the body has no scratch of its own); full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outH (iblk m c 0 t) (iblk m c 1 t) (iblk m c 2 t) (iblk m c 3 t) (iblk m c 4 t) (iblk m c 5 t) (iblk m c 6 t) (iblk m c 7 t) (iblk m c 8 t)
    | ⟨10, _⟩ => outC (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_H (c : Dev nD) (t : Fin cfg0.N) : (dats m 0 c).after 9 t
    = outH (iblk m c 0 t) (iblk m c 1 t) (iblk m c 2 t) (iblk m c 3 t) (iblk m c 4 t) (iblk m c 5 t) (iblk m c 6 t) (iblk m c 7 t) (iblk m c 8 t) := by
  dsimp only [dats]
theorem after_C (c : Dev nD) (t : Fin cfg0.N) : (dats m 0 c).after 10 t
    = outC (iblk m c 0 t) (iblk m c 1 t) (iblk m c 2 t) (iblk m c 3 t) (iblk m c 4 t) (iblk m c 5 t) (iblk m c 6 t) (iblk m c 7 t) (iblk m c 8 t) := by
  dsimp only [dats]

/-- An input window's current staging buffer holds the window's block at every point: at a point that fetches it
    because it was just fetched, at a point that does not because the block index has not moved and the body left the
    previous block in place. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl) (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl) (fun t => by rw [after_in5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl) (fun t => by rw [after_in6]; unfold Dat.blockOf iblk; rw [A_eq]; try rfl) t d).trans
    (by unfold Dat.fetched Dat.blockOf iblk; rw [A_eq]; try rfl)
theorem before_in7 (c : Dev nD) (t : Fin cfg0.N) (d) : (dats m 0 c).before 7 t d = iblk m c 7 t :=
  ((dats m 0 c).before_in_eq_fetched 7 rfl (fun _ => rfl) (fun _ _ _ => rfl) (fun t => by rw [after_in7]; unfold Dat.blockOf iblk; rw [A_eq]; try rfl) t d).trans
    (by unfold Dat.fetched Dat.blockOf iblk; rw [A_eq]; try rfl)
theorem before_in8 (c : Dev nD) (t : Fin cfg0.N) (d) : (dats m 0 c).before 8 t d = iblk m c 8 t :=
  ((dats m 0 c).before_in_eq_fetched 8 rfl (fun _ => rfl) (fun _ _ _ => rfl) (fun t => by rw [after_in8]; unfold Dat.blockOf iblk; rw [A_eq]; try rfl) t d).trans
    (by unfold Dat.fetched Dat.blockOf iblk; rw [A_eq]; try rfl)

/-! ## The body obligation -/

/-- What the body is handed at point `t`: the invariant, the core's dues, and the eleven current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the input buffers hold their blocks, so the body's triple applies; the invariant and the
    core's dues pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_H, after_C]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, every
    array a window stages ending at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The eighteen argument arrays hold in the final state `r` what they held at launch. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)
  ∧ r.2.mem ((c.tc : Thread nD τ).loc main_arg16) = m ((c.tc : Thread nD τ).loc main_arg16)
  ∧ r.2.mem ((c.tc : Thread nD τ).loc main_arg17) = m ((c.tc : Thread nD τ).loc main_arg17)

/-- The frame run's post, read at the argument arrays: the three batch arrays come back through their input
    windows, which only read them; no window and no host operation writes the other fifteen. -/
theorem args_kept (r : PUnit × MemSt nD τ sig (Elt F)) (h : Pipeline.FramePost cfgs (dats m) 0 (V m) r) (c : Dev nD) : ArgsKept m r c :=
  ⟨((h c).1 0).trans (((dats m 0 c).arrAt_in 0 rfl _).trans ((A_eq m c 0).trans (V_of_not_written m c main_arg0 (by decide) (by decide) (by decide) (by decide) (by decide) (by decide) (by decide) (by decide) (by decide)))),
    ((h c).1 1).trans (((dats m 0 c).arrAt_in 1 rfl _).trans ((A_eq m c 1).trans (V_of_not_written m c main_arg1 (by decide) (by decide) (by decide) (by decide) (by decide) (by decide) (by decide) (by decide) (by decide)))),
    ((h c).1 2).trans (((dats m 0 c).arrAt_in 2 rfl _).trans ((A_eq m c 2).trans (V_of_not_written m c main_arg2 (by decide) (by decide) (by decide) (by decide) (by decide) (by decide) (by decide) (by decide) (by decide)))),
    ((h c).2 main_arg3 (Pipeline.mem_restRefs_of main_arg3 (by decide) (by decide))).trans (V_of_not_written m c main_arg3 (by decide) (by decide) (by decide) (by decide) (by decide) (by decide) (by decide) (by decide) (by decide)),
    ((h c).2 main_arg4 (Pipeline.mem_restRefs_of main_arg4 (by decide) (by decide))).trans (V_of_not_written m c main_arg4 (by decide) (by decide) (by decide) (by decide) (by decide) (by decide) (by decide) (by decide) (by decide)),
    ((h c).2 main_arg5 (Pipeline.mem_restRefs_of main_arg5 (by decide) (by decide))).trans (V_of_not_written m c main_arg5 (by decide) (by decide) (by decide) (by decide) (by decide) (by decide) (by decide) (by decide) (by decide)),
    ((h c).2 main_arg6 (Pipeline.mem_restRefs_of main_arg6 (by decide) (by decide))).trans (V_of_not_written m c main_arg6 (by decide) (by decide) (by decide) (by decide) (by decide) (by decide) (by decide) (by decide) (by decide)),
    ((h c).2 main_arg7 (Pipeline.mem_restRefs_of main_arg7 (by decide) (by decide))).trans (V_of_not_written m c main_arg7 (by decide) (by decide) (by decide) (by decide) (by decide) (by decide) (by decide) (by decide) (by decide)),
    ((h c).2 main_arg8 (Pipeline.mem_restRefs_of main_arg8 (by decide) (by decide))).trans (V_of_not_written m c main_arg8 (by decide) (by decide) (by decide) (by decide) (by decide) (by decide) (by decide) (by decide) (by decide)),
    ((h c).2 main_arg9 (Pipeline.mem_restRefs_of main_arg9 (by decide) (by decide))).trans (V_of_not_written m c main_arg9 (by decide) (by decide) (by decide) (by decide) (by decide) (by decide) (by decide) (by decide) (by decide)),
    ((h c).2 main_arg10 (Pipeline.mem_restRefs_of main_arg10 (by decide) (by decide))).trans (V_of_not_written m c main_arg10 (by decide) (by decide) (by decide) (by decide) (by decide) (by decide) (by decide) (by decide) (by decide)),
    ((h c).2 main_arg11 (Pipeline.mem_restRefs_of main_arg11 (by decide) (by decide))).trans (V_of_not_written m c main_arg11 (by decide) (by decide) (by decide) (by decide) (by decide) (by decide) (by decide) (by decide) (by decide)),
    ((h c).2 main_arg12 (Pipeline.mem_restRefs_of main_arg12 (by decide) (by decide))).trans (V_of_not_written m c main_arg12 (by decide) (by decide) (by decide) (by decide) (by decide) (by decide) (by decide) (by decide) (by decide)),
    ((h c).2 main_arg13 (Pipeline.mem_restRefs_of main_arg13 (by decide) (by decide))).trans (V_of_not_written m c main_arg13 (by decide) (by decide) (by decide) (by decide) (by decide) (by decide) (by decide) (by decide) (by decide)),
    ((h c).2 main_arg14 (Pipeline.mem_restRefs_of main_arg14 (by decide) (by decide))).trans (V_of_not_written m c main_arg14 (by decide) (by decide) (by decide) (by decide) (by decide) (by decide) (by decide) (by decide) (by decide)),
    ((h c).2 main_arg15 (Pipeline.mem_restRefs_of main_arg15 (by decide) (by decide))).trans (V_of_not_written m c main_arg15 (by decide) (by decide) (by decide) (by decide) (by decide) (by decide) (by decide) (by decide) (by decide)),
    ((h c).2 main_arg16 (Pipeline.mem_restRefs_of main_arg16 (by decide) (by decide))).trans (V_of_not_written m c main_arg16 (by decide) (by decide) (by decide) (by decide) (by decide) (by decide) (by decide) (by decide) (by decide)),
    ((h c).2 main_arg17 (Pipeline.mem_restRefs_of main_arg17 (by decide) (by decide))).trans (V_of_not_written m c main_arg17 (by decide) (by decide) (by decide) (by decide) (by decide) (by decide) (by decide) (by decide) (by decide))⟩

/-- THE FRAME: the program runs to the end without a fault and its eighteen argument arrays end as launched. -/
theorem frame : θ_run defs (onTc (τ := τ) (main (F := F))) ⟨m, fun _ => 0, ρ⟩ (fun r => ∀ c : Dev nD, ArgsKept m r c) :=
  (θ_run defs _ _).mono (fun r h c => args_kept m r h c) (run_main m ρ)

end Cert.Kernel.Hand

end
-- ==== Proof.FrameKernelIdeal.lean ====
/-
  The kernel program, read at any float instance, runs to the end, faults nowhere and leaves its eighteen argument
  arrays as they were.

  The program is nine host operations (three joins of the gate weights and biases, four changes of float format,
  two reshapes of the biases to one-row matrices) followed by one pipelined region over 64 grid points.  At grid
  point t the region stages rows 128·t … 128·t+127 of the three batch arrays (windows 0, 1, 2), the six weight
  and bias arrays whole (windows 3 … 8, the same block at every point, so fetched once), runs the body, and
  writes the two result blocks (windows 9, 10) back to rows 128·t … of the two result arrays.

  The body only loads its nine input blocks, computes, and stores each result block whole (it also loads each
  result buffer once before overwriting it, a value it never uses).  So after the body every input buffer still
  holds its block, and each result buffer holds the body's stored value as a function of the input blocks:
  `outH` (hidden state) and `outC` (cell state) below.  With that as the region's proof data the library's
  frame theorem for one region after a straight line of host operations gives the run; the argument arrays are
  read off its post: the three staged ones through their windows, the other fifteen because no host operation
  and no window writes them.
-/
import proofs.«155157_j13288628814422_1_alg».proof.Proof.Gen.KernelIdeal.Launch
import proofs.«155157_j13288628814422_1_alg».proof.Proof.Gen.KernelIdeal.Skeleton
import proofs.«155157_j13288628814422_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the nine host operations. -/
abbrev V (c : Dev nD) (b : Ref sig .tc) : Buf (Elt F) ((c : Thread nD τ).loc b) := StableHlo.after hostOps0 (fun b => m (c, b)) b

/-- No host operation of the prefix allocates a buffer at contents of the machine's choosing. -/
theorem hostOps0_fresh : (hostOps0 : List (HloOp τ sig (Elt F))).Forall fun op => op.fresh = ∅ := by
  simp only [List.Forall]; repeat' constructor

/-- The program is the host prefix, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host prefix writes the nine buffers `main_v0 … main_v8` and nothing else: any other buffer is found by the
    region as launched. -/
theorem V_of_not_written (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) (h7 : b ≠ main_v7) (h8 : b ≠ main_v8) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The whole of each kind of buffer the body touches, as the rectangle its loads and stores name. -/
abbrev rB : Rect S128x1024 := Rect.unit (s := S128x1024) ![0, 0] S128x1024.size inb_S128x1024_S128x1024_0_0
abbrev rW : Rect S1024x1024 := Rect.unit (s := S1024x1024) ![0, 0] S1024x1024.size inb_S1024x1024_S1024x1024_0_0
abbrev rV : Rect S1x1024 := Rect.unit (s := S1x1024) ![0, 0] S1x1024.size inb_S1x1024_S1x1024_0_0
abbrev rG : Rect S1024x4096 := Rect.unit (s := S1024x4096) ![0, 0] S1024x4096.size inb_S1024x4096_S1024x4096_0_0
abbrev rU : Rect S1x4096 := Rect.unit (s := S1x4096) ![0, 0] S1x4096.size inb_S1x4096_S1x4096_0_0

section Stored

variable (x0 x1 x2 : Vec F S128x1024 .f32) (x3 x4 : Vec F S1024x1024 .bf16) (x5 : Vec F S1x1024 .f32)
  (x6 x7 : Vec F S1024x4096 .bf16) (x8 : Vec F S1x4096 .f32)

/-- The new cell-state block the body computes from its nine input blocks. -/
def valC : FVec F S128x1024 .f32 :=
  k0_pay1 (View.ld x2 rB)
    (k0_pay4 (View.ld x0 rB) (View.ld x1 rB) (View.ld x3 rW) (View.ld x4 rW) (View.ld x5 rV) (View.ld x6 rG) (View.ld x7 rG) (View.ld x8 rU))
    (k0_pay5 (View.ld x0 rB) (View.ld x1 rB) (View.ld x3 rW) (View.ld x4 rW) (View.ld x5 rV) (View.ld x6 rG) (View.ld x7 rG) (View.ld x8 rU))
    (k0_pay7 (View.ld x0 rB) (View.ld x1 rB) (View.ld x3 rW) (View.ld x4 rW) (View.ld x5 rV) (View.ld x6 rG) (View.ld x7 rG) (View.ld x8 rU))

/-- The new hidden-state block the body computes from its nine input blocks. -/
def valH : FVec F S128x1024 .f32 :=
  k0_pay2 (View.ld x2 rB)
    (k0_pay4 (View.ld x0 rB) (View.ld x1 rB) (View.ld x3 rW) (View.ld x4 rW) (View.ld x5 rV) (View.ld x6 rG) (View.ld x7 rG) (View.ld x8 rU))
    (k0_pay5 (View.ld x0 rB) (View.ld x1 rB) (View.ld x3 rW) (View.ld x4 rW) (View.ld x5 rV) (View.ld x6 rG) (View.ld x7 rG) (View.ld x8 rU))
    (k0_pay6 (View.ld x0 rB) (View.ld x1 rB) (View.ld x3 rW) (View.ld x4 rW) (View.ld x5 rV) (View.ld x6 rG) (View.ld x7 rG) (View.ld x8 rU))
    (k0_pay7 (View.ld x0 rB) (View.ld x1 rB) (View.ld x3 rW) (View.ld x4 rW) (View.ld x5 rV) (View.ld x6 rG) (View.ld x7 rG) (View.ld x8 rU))

/-- The hidden-state buffer after the body: its one whole-block store. -/
def outH : Vec F S128x1024 .f32 := View.canon [⟨rB, valH x0 x1 x2 x3 x4 x5 x6 x7 x8⟩]

/-- The cell-state buffer after the body: its one whole-block store. -/
def outC : Vec F S128x1024 .f32 := View.canon [⟨rB, valC x0 x1 x2 x3 x4 x5 x6 x7 x8⟩]

end Stored

/-- One store of the whole block covers the block. -/
theorem cover_whole (p0 : Vec F S128x1024 .f32) (y : S128x1024.Idx) :
    ∃ pc ∈ ([⟨rB, p0⟩] : List (View.Piece (Elt F) S128x1024 .f32)), y ∈ pc.1.set :=
  View.cover_of_tiled [⟨rB, p0⟩] S128x1024.size (by rfl) y

/-! ## The body's triple -/

set_option maxHeartbeats 2000000 in
/-- On whole staging buffers, the nine inputs' at contents `x0 … x8` and the two results' at anything, the body runs to
    its continuation with the inputs' buffers as they were and the results' at `outH` and `outC` of the inputs. -/
theorem sound_kernel (c : Dev nD) (E : Set ℕ) (i : grid0.Coords)
    (a1 : Memref sig .tc .vmem S128x1024 .f32) (h1 : a1.IsWhole) (a2 : Memref sig .tc .vmem S128x1024 .f32) (h2 : a2.IsWhole)
    (a3 : Memref sig .tc .vmem S128x1024 .f32) (h3 : a3.IsWhole) (a4 : Memref sig .tc .vmem S1024x1024 .bf16) (h4 : a4.IsWhole)
    (a5 : Memref sig .tc .vmem S1024x1024 .bf16) (h5 : a5.IsWhole) (a6 : Memref sig .tc .vmem S1x1024 .f32) (h6 : a6.IsWhole)
    (a7 : Memref sig .tc .vmem S1024x4096 .bf16) (h7 : a7.IsWhole) (a8 : Memref sig .tc .vmem S1024x4096 .bf16) (h8 : a8.IsWhole)
    (a9 : Memref sig .tc .vmem S1x4096 .f32) (h9 : a9.IsWhole) (a10 : Memref sig .tc .vmem S128x1024 .f32) (h10 : a10.IsWhole)
    (a11 : Memref sig .tc .vmem S128x1024 .f32) (h11 : a11.IsWhole)
    (x0 x1 x2 : Vec F S128x1024 .f32) (x3 x4 : Vec F S1024x1024 .bf16) (x5 : Vec F S1x1024 .f32)
    (x6 x7 : Vec F S1024x4096 .bf16) (x8 : Vec F S1x4096 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ (∃ d, owns (c : Thread nD τ) a10 fullShare d) ∗ (∃ d, owns (c : Thread nD τ) a11 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare (outH x0 x1 x2 x3 x4 x5 x6 x7 x8)
            ∗ owns (c : Thread nD τ) a11 fullShare (outC x0 x1 x2 x3 x4 x5 x6 x7 x8)) -∗ K ⟨⟩))
      ⊢ wp frame (wpE (defs₀ (F := F)) Variants.none c none) E (cc0__mlstm_kernel i a1 h1 a2 h2 a3 h3 a4 h4 a5 h5 a6 h6 a7 h7 a8 h8 a9 h9 a10 h10 a11 h11) K := by
  simp only [cc0__mlstm_kernel_eq_skeleton]; unfold cc0__mlstm_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, Hk⟩
  subst e0 e1 e2 e3 e4 e5 e6 e7 e8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    try dsimp only
    exact View.read_writes_eq_canon _ _ _ (cover_whole _)
  iexists _; isplitr
  swap; · iexact H10
  ipureintro
  try dsimp only
  exact View.read_writes_eq_canon _ _ _ (cover_whole _)

/-! ## The region's proof data -/

/-- On core `c`: the arrays as the region finds them; after the body at point `t` each input buffer still at its
    block, the hidden-state buffer at `outH` and the cell-state buffer at `outC` of the nine input blocks; the
    invariant is the plain one (the body has no scratch of its own); full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outH (iblk m c 0 t) (iblk m c 1 t) (iblk m c 2 t) (iblk m c 3 t) (iblk m c 4 t) (iblk m c 5 t) (iblk m c 6 t) (iblk m c 7 t) (iblk m c 8 t)
    | ⟨10, _⟩ => outC (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_H (c : Dev nD) (t : Fin cfg0.N) : (dats m 0 c).after 9 t
    = outH (iblk m c 0 t) (iblk m c 1 t) (iblk m c 2 t) (iblk m c 3 t) (iblk m c 4 t) (iblk m c 5 t) (iblk m c 6 t) (iblk m c 7 t) (iblk m c 8 t) := by
  dsimp only [dats]
theorem after_C (c : Dev nD) (t : Fin cfg0.N) : (dats m 0 c).after 10 t
    = outC (iblk m c 0 t) (iblk m c 1 t) (iblk m c 2 t) (iblk m c 3 t) (iblk m c 4 t) (iblk m c 5 t) (iblk m c 6 t) (iblk m c 7 t) (iblk m c 8 t) := by
  dsimp only [dats]

/-- An input window's current staging buffer holds the window's block at every point: at a point that fetches it
    because it was just fetched, at a point that does not because the block index has not moved and the body left the
    previous block in place. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl) (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl) (fun t => by rw [after_in5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl) (fun t => by rw [after_in6]; unfold Dat.blockOf iblk; rw [A_eq]; try rfl) t d).trans
    (by unfold Dat.fetched Dat.blockOf iblk; rw [A_eq]; try rfl)
theorem before_in7 (c : Dev nD) (t : Fin cfg0.N) (d) : (dats m 0 c).before 7 t d = iblk m c 7 t :=
  ((dats m 0 c).before_in_eq_fetched 7 rfl (fun _ => rfl) (fun _ _ _ => rfl) (fun t => by rw [after_in7]; unfold Dat.blockOf iblk; rw [A_eq]; try rfl) t d).trans
    (by unfold Dat.fetched Dat.blockOf iblk; rw [A_eq]; try rfl)
theorem before_in8 (c : Dev nD) (t : Fin cfg0.N) (d) : (dats m 0 c).before 8 t d = iblk m c 8 t :=
  ((dats m 0 c).before_in_eq_fetched 8 rfl (fun _ => rfl) (fun _ _ _ => rfl) (fun t => by rw [after_in8]; unfold Dat.blockOf iblk; rw [A_eq]; try rfl) t d).trans
    (by unfold Dat.fetched Dat.blockOf iblk; rw [A_eq]; try rfl)

/-! ## The body obligation -/

/-- What the body is handed at point `t`: the invariant, the core's dues, and the eleven current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the input buffers hold their blocks, so the body's triple applies; the invariant and the
    core's dues pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_H, after_C]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, every
    array a window stages ending at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The eighteen argument arrays hold in the final state `r` what they held at launch. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)
  ∧ r.2.mem ((c.tc : Thread nD τ).loc main_arg16) = m ((c.tc : Thread nD τ).loc main_arg16)
  ∧ r.2.mem ((c.tc : Thread nD τ).loc main_arg17) = m ((c.tc : Thread nD τ).loc main_arg17)

/-- The frame run's post, read at the argument arrays: the three batch arrays come back through their input
    windows, which only read them; no window and no host operation writes the other fifteen. -/
theorem args_kept (r : PUnit × MemSt nD τ sig (Elt F)) (h : Pipeline.FramePost cfgs (dats m) 0 (V m) r) (c : Dev nD) : ArgsKept m r c :=
  ⟨((h c).1 0).trans (((dats m 0 c).arrAt_in 0 rfl _).trans ((A_eq m c 0).trans (V_of_not_written m c main_arg0 (by decide) (by decide) (by decide) (by decide) (by decide) (by decide) (by decide) (by decide) (by decide)))),
    ((h c).1 1).trans (((dats m 0 c).arrAt_in 1 rfl _).trans ((A_eq m c 1).trans (V_of_not_written m c main_arg1 (by decide) (by decide) (by decide) (by decide) (by decide) (by decide) (by decide) (by decide) (by decide)))),
    ((h c).1 2).trans (((dats m 0 c).arrAt_in 2 rfl _).trans ((A_eq m c 2).trans (V_of_not_written m c main_arg2 (by decide) (by decide) (by decide) (by decide) (by decide) (by decide) (by decide) (by decide) (by decide)))),
    ((h c).2 main_arg3 (Pipeline.mem_restRefs_of main_arg3 (by decide) (by decide))).trans (V_of_not_written m c main_arg3 (by decide) (by decide) (by decide) (by decide) (by decide) (by decide) (by decide) (by decide) (by decide)),
    ((h c).2 main_arg4 (Pipeline.mem_restRefs_of main_arg4 (by decide) (by decide))).trans (V_of_not_written m c main_arg4 (by decide) (by decide) (by decide) (by decide) (by decide) (by decide) (by decide) (by decide) (by decide)),
    ((h c).2 main_arg5 (Pipeline.mem_restRefs_of main_arg5 (by decide) (by decide))).trans (V_of_not_written m c main_arg5 (by decide) (by decide) (by decide) (by decide) (by decide) (by decide) (by decide) (by decide) (by decide)),
    ((h c).2 main_arg6 (Pipeline.mem_restRefs_of main_arg6 (by decide) (by decide))).trans (V_of_not_written m c main_arg6 (by decide) (by decide) (by decide) (by decide) (by decide) (by decide) (by decide) (by decide) (by decide)),
    ((h c).2 main_arg7 (Pipeline.mem_restRefs_of main_arg7 (by decide) (by decide))).trans (V_of_not_written m c main_arg7 (by decide) (by decide) (by decide) (by decide) (by decide) (by decide) (by decide) (by decide) (by decide)),
    ((h c).2 main_arg8 (Pipeline.mem_restRefs_of main_arg8 (by decide) (by decide))).trans (V_of_not_written m c main_arg8 (by decide) (by decide) (by decide) (by decide) (by decide) (by decide) (by decide) (by decide) (by decide)),
    ((h c).2 main_arg9 (Pipeline.mem_restRefs_of main_arg9 (by decide) (by decide))).trans (V_of_not_written m c main_arg9 (by decide) (by decide) (by decide) (by decide) (by decide) (by decide) (by decide) (by decide) (by decide)),
    ((h c).2 main_arg10 (Pipeline.mem_restRefs_of main_arg10 (by decide) (by decide))).trans (V_of_not_written m c main_arg10 (by decide) (by decide) (by decide) (by decide) (by decide) (by decide) (by decide) (by decide) (by decide)),
    ((h c).2 main_arg11 (Pipeline.mem_restRefs_of main_arg11 (by decide) (by decide))).trans (V_of_not_written m c main_arg11 (by decide) (by decide) (by decide) (by decide) (by decide) (by decide) (by decide) (by decide) (by decide)),
    ((h c).2 main_arg12 (Pipeline.mem_restRefs_of main_arg12 (by decide) (by decide))).trans (V_of_not_written m c main_arg12 (by decide) (by decide) (by decide) (by decide) (by decide) (by decide) (by decide) (by decide) (by decide)),
    ((h c).2 main_arg13 (Pipeline.mem_restRefs_of main_arg13 (by decide) (by decide))).trans (V_of_not_written m c main_arg13 (by decide) (by decide) (by decide) (by decide) (by decide) (by decide) (by decide) (by decide) (by decide)),
    ((h c).2 main_arg14 (Pipeline.mem_restRefs_of main_arg14 (by decide) (by decide))).trans (V_of_not_written m c main_arg14 (by decide) (by decide) (by decide) (by decide) (by decide) (by decide) (by decide) (by decide) (by decide)),
    ((h c).2 main_arg15 (Pipeline.mem_restRefs_of main_arg15 (by decide) (by decide))).trans (V_of_not_written m c main_arg15 (by decide) (by decide) (by decide) (by decide) (by decide) (by decide) (by decide) (by decide) (by decide)),
    ((h c).2 main_arg16 (Pipeline.mem_restRefs_of main_arg16 (by decide) (by decide))).trans (V_of_not_written m c main_arg16 (by decide) (by decide) (by decide) (by decide) (by decide) (by decide) (by decide) (by decide) (by decide)),
    ((h c).2 main_arg17 (Pipeline.mem_restRefs_of main_arg17 (by decide) (by decide))).trans (V_of_not_written m c main_arg17 (by decide) (by decide) (by decide) (by decide) (by decide) (by decide) (by decide) (by decide) (by decide))⟩

/-- THE FRAME: the program runs to the end without a fault and its eighteen argument arrays end as launched. -/
theorem frame : θ_run defs (onTc (τ := τ) (main (F := F))) ⟨m, fun _ => 0, ρ⟩ (fun r => ∀ c : Dev nD, ArgsKept m r c) :=
  (θ_run defs _ _).mono (fun r h c => args_kept m r h c) (run_main m ρ)

end Cert.KernelIdeal.Hand

end
-- ==== Proof.Spec.lean ====
/-
  One step of a multiplicative LSTM cell, row by row, on the extended reals.

  For one batch row with input row `xr`, previous hidden row `hr` and previous cell row `cr` (each of length 1024):
    mix  k = ((Σ k', xr k' · Wm k' k  +  Σ k', hr k' · Um k' k) + bm k) · xr k          (the transformed input)
    gate n = (Σ k, mix k · Wc k n  +  Σ k, hr k · Uc k n) + bc n                        (n < 4096: four gates of 1024)
    cellC j = σ (gate (1024 + j)) · cr j  +  σ (gate j) · tanh (gate (3072 + j))        (the new cell row)
    cellH j = σ (gate (2048 + j)) · tanh (cellC j)                                      (the new hidden row)
  with σ x = 1 / (1 + e^(-x)).  A row of the result depends on the same row of the three batch arrays and on
  the weights only: that is why the batch axis may be cut into blocks of any size.  Every sum is a finite sum in
  the order written, so no rearrangement (hence no finiteness) is needed to compare two programs that both
  compute these formulas.
-/
import Idealize.ShloMosaic.PureOps.Ideal
import Idealize.ShloMosaic.Lib.ValueIdx

noncomputable section

namespace MulLstm

open Idealize.ShloMosaic

/-- The four gate columns of hidden index `j`, as indices into the joined axis of length 4096. -/
abbrev colI (j : Fin 1024) : Fin 4096 := ⟨j.val, by omega⟩
abbrev colF (j : Fin 1024) : Fin 4096 := ⟨1024 + j.val, by omega⟩
abbrev colO (j : Fin 1024) : Fin 4096 := ⟨2048 + j.val, by omega⟩
abbrev colG (j : Fin 1024) : Fin 4096 := ⟨3072 + j.val, by omega⟩

/-- Row `r` of a matrix, a matrix as a function of its two coordinates, and a vector as a function of its one. -/
abbrev rowOf {a b : Nat} (X : (⟨2, ![a, b]⟩ : Shape).Idx → EReal) (r : Fin a) : Fin b → EReal := fun k => X (ValueIdx.ix2 r k)
abbrev matOf {a b : Nat} (W : (⟨2, ![a, b]⟩ : Shape).Idx → EReal) : Fin a → Fin b → EReal := fun k n => W (ValueIdx.ix2 k n)
abbrev vecOf {a : Nat} (v : (⟨1, ![a]⟩ : Shape).Idx → EReal) : Fin a → EReal := fun n => v (ValueIdx.ix1 n)

section Row

variable (xr hr cr : Fin 1024 → EReal) (Wm Um : Fin 1024 → Fin 1024 → EReal) (bm : Fin 1024 → EReal)
  (Wc Uc : Fin 1024 → Fin 4096 → EReal) (bc : Fin 4096 → EReal)

/-- The transformed input: the affine image of the row under `Wm`, `Um`, `bm`, times the row itself. -/
def mix (k : Fin 1024) : EReal :=
  ((∑ k' : Fin 1024, xr k' * Wm k' k + ∑ k' : Fin 1024, hr k' * Um k' k) + bm k) * xr k

/-- The four gates' pre-activations, joined along one axis of length 4096. -/
def gate (n : Fin 4096) : EReal :=
  (∑ k : Fin 1024, mix xr hr Wm Um bm k * Wc k n + ∑ k : Fin 1024, hr k * Uc k n) + bc n

/-- The new cell row: forget gate times the old cell plus input gate times the candidate. -/
def cellC (j : Fin 1024) : EReal :=
  Ideal.logistic (gate xr hr Wm Um bm Wc Uc bc (colF j)) * cr j
    + Ideal.logistic (gate xr hr Wm Um bm Wc Uc bc (colI j)) * Ideal.tanh (gate xr hr Wm Um bm Wc Uc bc (colG j))

/-- The new hidden row: output gate times the squashed new cell. -/
def cellH (j : Fin 1024) : EReal :=
  Ideal.logistic (gate xr hr Wm Um bm Wc Uc bc (colO j)) * Ideal.tanh (cellC xr hr cr Wm Um bm Wc Uc bc j)

end Row

/-- The logistic function as the host spells it, one over one plus the exponential of the negation, is the
    logistic function: at a real number, at +∞ (value 1) and at −∞ (value 0) alike. -/
theorem logistic_spelled (x : EReal) : Ideal.div 1 (1 + Ideal.exp (-x)) = Ideal.logistic x := rfl

/-- The pattern of the float 1.0 denotes the real number one. -/
theorem ofBits_one : Ideal.ofBits .f32 0x3F800000#32 = (1 : EReal) := by
  simp [Ideal.ofBits, Ideal.ieee, -EReal.coe_mul]; norm_num

end MulLstm

end
-- ==== Proof.PayIsSpec.lean ====
/-
  The kernel body's two stored values, read one element at a time, are the row formulas of the specification:
  element (p, j) of what it stores into the cell block is `cellC`, and into the hidden block `cellH`, of row p of
  the three batch blocks it loaded, with the weight blocks as loaded (a change of float format is the identity on
  the extended reals, a matrix product into a zero accumulator is the plain sum of products, and a row vector
  broadcast down the rows is read at its column).
-/
import proofs.«155157_j13288628814422_1_alg».proof.Proof.Gen.KernelIdeal.Skeleton
import proofs.«155157_j13288628814422_1_alg».proof.Proof.Spec
import Idealize.ShloMosaic.PureOps.Ideal.Laws
import Idealize.ShloMosaic.Lib.Pipeline.Value

noncomputable section

namespace Cert.KernelIdeal.PaySpec

open Cert.KernelIdeal Cert.KernelIdeal.Gen Idealize.ShloMosaic MulLstm

/-! ### The two matrix products, the row broadcasts and the column blocks, read at an index

For each of the two products, the left operand is read at (row of the output index, contraction position) and the
right operand at (contraction position, column of the output index): four coordinate facts per product, then the
product itself as the sum over the 1024 contraction positions. -/

private theorem lhsA_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
private theorem lhsA_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
private theorem rhsA_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
private theorem rhsA_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- A product of a [128,1024] block with a [1024,1024] block into a zero accumulator, read at (p, n), is the sum over k of
    the left block at (p, k) times the right block at (k, n). -/
private theorem mmA_apply (a : FVec Ideal S128x1024 .bf16) (b : FVec Ideal S1024x1024 .bf16) (p : Fin 128) (n : Fin 1024) :
    matmul (F := Ideal) dot_S128x1024_S1024x1024_S128x1024_1_0_0_1_n_n none a b (constant (F := Ideal) S128x1024 .f32 0x00000000#32) (ValueIdx.ix2 p n)
      = ∑ k : Fin 1024, a (ValueIdx.ix2 p k) * b (ValueIdx.ix2 k n) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ValueIdx.ix2 p n) ((ValueIdx.contrEquiv1 dot_S128x1024_S1024x1024_S128x1024_1_0_0_1_n_n 1024 rfl rfl).symm k) = ValueIdx.ix2 p k := funext fun a => Fin.ext (by
    match a with
    | ⟨0, _⟩ => exact lhsA_0 _ _
    | ⟨1, _⟩ => exact (lhsA_1 _ _).trans hk)
  have er : dot_S128x1024_S1024x1024_S128x1024_1_0_0_1_n_n.rhsIdx (ValueIdx.ix2 p n) ((ValueIdx.contrEquiv1 dot_S128x1024_S1024x1024_S128x1024_1_0_0_1_n_n 1024 rfl rfl).symm k) = ValueIdx.ix2 k n := funext fun a => Fin.ext (by
    match a with
    | ⟨0, _⟩ => exact (rhsA_0 _ _).trans hk
    | ⟨1, _⟩ => exact rhsA_1 _ _)
  rw [el, er]

private theorem lhsB_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
private theorem lhsB_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
private theorem rhsB_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
private theorem rhsB_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A product of a [128,1024] block with a [1024,4096] block into a zero accumulator, read at (p, n), is the sum over k of
    the left block at (p, k) times the right block at (k, n). -/
private theorem mmB_apply (a : FVec Ideal S128x1024 .bf16) (b : FVec Ideal S1024x4096 .bf16) (p : Fin 128) (n : Fin 4096) :
    matmul (F := Ideal) dot_S128x1024_S1024x4096_S128x4096_1_0_0_1_n_n none a b (constant (F := Ideal) S128x4096 .f32 0x00000000#32) (ValueIdx.ix2 p n)
      = ∑ k : Fin 1024, a (ValueIdx.ix2 p k) * b (ValueIdx.ix2 k n) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ValueIdx.ix2 p n) ((ValueIdx.contrEquiv1 dot_S128x1024_S1024x4096_S128x4096_1_0_0_1_n_n 1024 rfl rfl).symm k) = ValueIdx.ix2 p k := funext fun a => Fin.ext (by
    match a with
    | ⟨0, _⟩ => exact lhsB_0 _ _
    | ⟨1, _⟩ => exact (lhsB_1 _ _).trans hk)
  have er : dot_S128x1024_S1024x4096_S128x4096_1_0_0_1_n_n.rhsIdx (ValueIdx.ix2 p n) ((ValueIdx.contrEquiv1 dot_S128x1024_S1024x4096_S128x4096_1_0_0_1_n_n 1024 rfl rfl).symm k) = ValueIdx.ix2 k n := funext fun a => Fin.ext (by
    match a with
    | ⟨0, _⟩ => exact (rhsB_0 _ _).trans hk
    | ⟨1, _⟩ => exact rhsB_1 _ _)
  rw [el, er]

/-- A [1,1024] row broadcast down 128 rows, read at (p, k), is the row at (0, k). -/
private theorem bcast1024_apply (x : FVec Ideal S1x1024 .f32) (h : S1x1024.Broadcasts S128x1024) (p : Fin 128) (k : Fin 1024) :
    broadcastTo S128x1024 x h (ValueIdx.ix2 p k) = x (ValueIdx.ix2 0 k) :=
  broadcastTo_apply x h (ValueIdx.ix2 p k) (ValueIdx.ix2 0 k) (fun a => match a with
    | ⟨0, _⟩ => by show (0 : Nat) = if (1 : Nat) = 1 then 0 else p.val; rw [if_pos rfl]
    | ⟨1, _⟩ => by show k.val = if (1024 : Nat) = 1 then 0 else k.val; rw [if_neg (by decide)])

/-- A [1,4096] row broadcast down 128 rows, read at (p, n), is the row at (0, n). -/
private theorem bcast4096_apply (x : FVec Ideal S1x4096 .f32) (h : S1x4096.Broadcasts S128x4096) (p : Fin 128) (n : Fin 4096) :
    broadcastTo S128x4096 x h (ValueIdx.ix2 p n) = x (ValueIdx.ix2 0 n) :=
  broadcastTo_apply x h (ValueIdx.ix2 p n) (ValueIdx.ix2 0 n) (fun a => match a with
    | ⟨0, _⟩ => by show (0 : Nat) = if (1 : Nat) = 1 then 0 else p.val; rw [if_pos rfl]
    | ⟨1, _⟩ => by show n.val = if (4096 : Nat) = 1 then 0 else n.val; rw [if_neg (by decide)])

/-- A block of 1024 columns starting at column c, read at (p, j), is the operand at (p, c + j). -/
private theorem slice_apply (c : Nat) (x : FVec Ideal S128x4096 .f32) (h : S128x4096.Slices ![0, c] S128x1024) (p : Fin 128)
    (j : Fin 1024) (n : Fin 4096) (hn : n.val = c + j.val) :
    extractStridedSlice S128x1024 ![0, c] x h (ValueIdx.ix2 p j) = x (ValueIdx.ix2 p n) :=
  extractStridedSlice_apply ![0, c] x h (ValueIdx.ix2 p j) (ValueIdx.ix2 p n) (fun a => match a with
    | ⟨0, _⟩ => by show p.val = 0 + p.val; omega
    | ⟨1, _⟩ => by show n.val = c + j.val; exact hn)

variable (v0 v1 v2 : Vec Ideal S128x1024 .f32) (v5 v8 : Vec Ideal S1024x1024 .bf16) (v12 : Vec Ideal S1x1024 .f32)
  (v18 v21 : Vec Ideal S1024x4096 .bf16) (v25 : Vec Ideal S1x4096 .f32)

/-! ### The pre-activations and the four gates -/
/-- The joined pre-activations the body computes, read at row p and column n, are the gate formula of row p. -/
private theorem gate_apply (p : Fin 128) (n : Fin 4096) :
    k0_pay3 (F := Ideal) v0 v1 v5 v8 v12 v18 v21 v25 (ValueIdx.ix2 p n)
      = gate (rowOf v0 p) (rowOf v1 p) (matOf v5) (matOf v8) (fun k => v12 (ValueIdx.ix2 0 k))
          (matOf v18) (matOf v21) (fun n => v25 (ValueIdx.ix2 0 n)) n := by
  unfold k0_pay3 gate mix
  simp only [shapeCast_self, ValueIdx.addf_apply, ValueIdx.mulf_apply, ValueIdx.truncf_apply, mmA_apply, mmB_apply,
    bcast1024_apply, bcast4096_apply]

/-- The input gate: the logistic function of the first block of 1024 columns. -/
private theorem pay4_apply (p : Fin 128) (j : Fin 1024) :
    k0_pay4 (F := Ideal) v0 v1 v5 v8 v12 v18 v21 v25 (ValueIdx.ix2 p j)
      = Ideal.logistic (gate (rowOf v0 p) (rowOf v1 p) (matOf v5) (matOf v8) (fun k => v12 (ValueIdx.ix2 0 k))
          (matOf v18) (matOf v21) (fun n => v25 (ValueIdx.ix2 0 n)) (colI j)) := by
  unfold k0_pay4
  refine Eq.trans (b := Ideal.logistic (k0_pay3 (F := Ideal) v0 v1 v5 v8 v12 v18 v21 v25 (ValueIdx.ix2 p (colI j)))) ?_ ?_
  · exact congrArg Ideal.logistic (slice_apply 0 _ _ p j (colI j) (by show j.val = 0 + j.val; omega))
  · exact congrArg Ideal.logistic (gate_apply v0 v1 v5 v8 v12 v18 v21 v25 p (colI j))

/-- The forget gate: the logistic function of the second block of 1024 columns. -/
private theorem pay5_apply (p : Fin 128) (j : Fin 1024) :
    k0_pay5 (F := Ideal) v0 v1 v5 v8 v12 v18 v21 v25 (ValueIdx.ix2 p j)
      = Ideal.logistic (gate (rowOf v0 p) (rowOf v1 p) (matOf v5) (matOf v8) (fun k => v12 (ValueIdx.ix2 0 k))
          (matOf v18) (matOf v21) (fun n => v25 (ValueIdx.ix2 0 n)) (colF j)) := by
  unfold k0_pay5
  refine Eq.trans (b := Ideal.logistic (k0_pay3 (F := Ideal) v0 v1 v5 v8 v12 v18 v21 v25 (ValueIdx.ix2 p (colF j)))) ?_ ?_
  · exact congrArg Ideal.logistic (slice_apply 1024 _ _ p j (colF j) rfl)
  · exact congrArg Ideal.logistic (gate_apply v0 v1 v5 v8 v12 v18 v21 v25 p (colF j))

/-- The output gate: the logistic function of the third block of 1024 columns. -/
private theorem pay6_apply (p : Fin 128) (j : Fin 1024) :
    k0_pay6 (F := Ideal) v0 v1 v5 v8 v12 v18 v21 v25 (ValueIdx.ix2 p j)
      = Ideal.logistic (gate (rowOf v0 p) (rowOf v1 p) (matOf v5) (matOf v8) (fun k => v12 (ValueIdx.ix2 0 k))
          (matOf v18) (matOf v21) (fun n => v25 (ValueIdx.ix2 0 n)) (colO j)) := by
  unfold k0_pay6
  refine Eq.trans (b := Ideal.logistic (k0_pay3 (F := Ideal) v0 v1 v5 v8 v12 v18 v21 v25 (ValueIdx.ix2 p (colO j)))) ?_ ?_
  · exact congrArg Ideal.logistic (slice_apply 2048 _ _ p j (colO j) rfl)
  · exact congrArg Ideal.logistic (gate_apply v0 v1 v5 v8 v12 v18 v21 v25 p (colO j))

/-- The candidate: the hyperbolic tangent of the fourth block of 1024 columns. -/
private theorem pay7_apply (p : Fin 128) (j : Fin 1024) :
    k0_pay7 (F := Ideal) v0 v1 v5 v8 v12 v18 v21 v25 (ValueIdx.ix2 p j)
      = Ideal.tanh (gate (rowOf v0 p) (rowOf v1 p) (matOf v5) (matOf v8) (fun k => v12 (ValueIdx.ix2 0 k))
          (matOf v18) (matOf v21) (fun n => v25 (ValueIdx.ix2 0 n)) (colG j)) := by
  unfold k0_pay7
  refine Eq.trans (b := Ideal.tanh (k0_pay3 (F := Ideal) v0 v1 v5 v8 v12 v18 v21 v25 (ValueIdx.ix2 p (colG j)))) ?_ ?_
  · exact congrArg Ideal.tanh (slice_apply 3072 _ _ p j (colG j) rfl)
  · exact congrArg Ideal.tanh (gate_apply v0 v1 v5 v8 v12 v18 v21 v25 p (colG j))

/-! ### The two stored values -/

/-- What the body stores into the cell-state block, at row `p` of the block and column `j`. -/
theorem cell_apply (p : Fin 128) (j : Fin 1024) :
    k0_pay1 (F := Ideal) v2 (k0_pay4 v0 v1 v5 v8 v12 v18 v21 v25) (k0_pay5 v0 v1 v5 v8 v12 v18 v21 v25)
        (k0_pay7 v0 v1 v5 v8 v12 v18 v21 v25) (ValueIdx.ix2 p j)
      = cellC (rowOf v0 p) (rowOf v1 p) (rowOf v2 p) (matOf v5) (matOf v8) (fun k => v12 (ValueIdx.ix2 0 k))
          (matOf v18) (matOf v21) (fun n => v25 (ValueIdx.ix2 0 n)) j := by
  unfold k0_pay1 cellC
  simp only [ValueIdx.addf_apply, ValueIdx.mulf_apply, pay4_apply, pay5_apply, pay7_apply]

/-- What the body stores into the hidden-state block, at row `p` of the block and column `j`. -/
theorem hidden_apply (p : Fin 128) (j : Fin 1024) :
    k0_pay2 (F := Ideal) v2 (k0_pay4 v0 v1 v5 v8 v12 v18 v21 v25) (k0_pay5 v0 v1 v5 v8 v12 v18 v21 v25)
        (k0_pay6 v0 v1 v5 v8 v12 v18 v21 v25) (k0_pay7 v0 v1 v5 v8 v12 v18 v21 v25) (ValueIdx.ix2 p j)
      = cellH (rowOf v0 p) (rowOf v1 p) (rowOf v2 p) (matOf v5) (matOf v8) (fun k => v12 (ValueIdx.ix2 0 k))
          (matOf v18) (matOf v21) (fun n => v25 (ValueIdx.ix2 0 n)) j := by
  unfold k0_pay2 cellH
  refine Eq.trans (b := Ideal.logistic (gate (rowOf v0 p) (rowOf v1 p) (matOf v5) (matOf v8) (fun k => v12 (ValueIdx.ix2 0 k))
      (matOf v18) (matOf v21) (fun n => v25 (ValueIdx.ix2 0 n)) (colO j))
      * Ideal.tanh (k0_pay1 (F := Ideal) v2 (k0_pay4 v0 v1 v5 v8 v12 v18 v21 v25) (k0_pay5 v0 v1 v5 v8 v12 v18 v21 v25)
        (k0_pay7 v0 v1 v5 v8 v12 v18 v21 v25) (ValueIdx.ix2 p j))) ?_ ?_
  · exact congrArg (· * _) (pay6_apply v0 v1 v5 v8 v12 v18 v21 v25 p j)
  · exact congrArg (fun t => _ * Ideal.tanh t) (cell_apply v0 v1 v2 v5 v8 v12 v18 v21 v25 p j)

end Cert.KernelIdeal.PaySpec

end
-- ==== Proof.ValueKernelIdeal.lean ====
/-
  The idealized kernel's two result arrays, as whole-array functions of the arrays the region finds.

  At grid point t the region stages rows 128·t … 128·t+127 of the three batch arrays and the six weight and bias
  arrays whole; the body's two stored blocks are, element (p, j), the row formulas `cellH` and `cellC` of row p of
  the staged batch blocks (the body's arithmetic read at an index).  Row p of a batch block at point t is row
  128·t + p of the batch array, and a weight block is the weight array itself, so what point t writes back is
  block t of ONE function of the arrays: `resH`, `resC` below.  The 64 blocks of 128 rows tile the 8192 rows
  (row r lies in block r / 128), so after the run each result array IS that function.
-/
import proofs.«155157_j13288628814422_1_alg».proof.Proof.FrameKernelIdeal
import proofs.«155157_j13288628814422_1_alg».proof.Proof.PayIsSpec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand MulLstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds, by their mathematical names -/

section Arrays
variable (c : Dev nD)
abbrev aX : S8192x1024.Idx → EReal := V m c main_arg0
abbrev aH : S8192x1024.Idx → EReal := V m c main_arg1
abbrev aC : S8192x1024.Idx → EReal := V m c main_arg2
abbrev aWm : S1024x1024.Idx → EReal := V m c main_v3
abbrev aUm : S1024x1024.Idx → EReal := V m c main_v4
abbrev aBm : S1x1024.Idx → EReal := V m c main_v7
abbrev aWc : S1024x4096.Idx → EReal := V m c main_v5
abbrev aUc : S1024x4096.Idx → EReal := V m c main_v6
abbrev aBc : S1x4096.Idx → EReal := V m c main_v8

/-- The hidden-state result: at (r, j) the new hidden state of batch row r. -/
def resH : S8192x1024.Idx → EReal := fun i =>
  cellH (rowOf (aX m c) (i 0)) (rowOf (aH m c) (i 0)) (rowOf (aC m c) (i 0)) (matOf (aWm m c)) (matOf (aUm m c))
    (fun k => aBm m c (ix2 0 k)) (matOf (aWc m c)) (matOf (aUc m c)) (fun n => aBc m c (ix2 0 n)) (i 1)

/-- The cell-state result: at (r, j) the new cell state of batch row r. -/
def resC : S8192x1024.Idx → EReal := fun i =>
  cellC (rowOf (aX m c) (i 0)) (rowOf (aH m c) (i 0)) (rowOf (aC m c) (i 0)) (matOf (aWm m c)) (matOf (aUm m c))
    (fun k => aBm m c (ix2 0 k)) (matOf (aWc m c)) (matOf (aUc m c)) (fun n => aBc m c (ix2 0 n)) (i 1)
end Arrays

/-! ## Where the blocks sit -/

theorem hz : (![0, 0] : Fin 2 → Nat) = fun _ => 0 := funext fun a => by fin_cases a <;> rfl

/-- The block index of every window at grid point t: the batch windows and the result windows are at block row t,
    the weight and bias windows at their one block. -/
theorem where_blocks : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem t_lt (t : Fin cfg0.N) : t.val < 64 := Nat.lt_of_lt_of_eq t.isLt (N_0 : cfg0.N = 64)

/-- Batch row of row p of the block at point t. -/
abbrev rowAt (t : Fin cfg0.N) (p : Fin 128) : Fin 8192 := ⟨t.val * 128 + p.val, by have := t_lt t; omega⟩

section Blocks
variable (c : Dev nD) (t : Fin cfg0.N)

theorem blkX (p : Fin 128) : rowOf (iblk m c 0 t) p = rowOf (aX m c) (rowAt t p) := by
  obtain ⟨⟨e0, e1⟩, -⟩ := where_blocks t
  funext k
  show V m c main_arg0 (((cfg0.win 0).blk t).view.emb (ix2 p k)) = V m c main_arg0 (ix2 (rowAt t p) k)
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 1024 + 1 * k.val = k.val; omega

theorem blkH (p : Fin 128) : rowOf (iblk m c 1 t) p = rowOf (aH m c) (rowAt t p) := by
  obtain ⟨-, ⟨e0, e1⟩, -⟩ := where_blocks t
  funext k
  show V m c main_arg1 (((cfg0.win 1).blk t).view.emb (ix2 p k)) = V m c main_arg1 (ix2 (rowAt t p) k)
  refine congrArg _ (funext fun a => Fin.ext ?_)
  match a with
  | ⟨0, _⟩ => show win0_1.index t (0 : Fin 2) * 128 + 1 * p.val = t.val * 128 + p.val; omega
  | ⟨1, _⟩ => show win0_1.index t (1 : Fin 2) * 1024 + 1 * k.val = k.val; omega

theorem blkC (p : Fin 128) : rowOf (iblk m c 2 t) p = rowOf (aC m c) (rowAt t p) := by
  obtain ⟨-, -, ⟨e0, e1⟩, -⟩ := where_blocks t
  funext k
  show V m c main_arg2 (((cfg0.win 2).blk t).view.emb (ix2 p k)) = V m c main_arg2 (ix2 (rowAt t p) k)
  refine congrArg _ (funext fun a => Fin.ext ?_)
  match a with
  | ⟨0, _⟩ => show win0_2.index t (0 : Fin 2) * 128 + 1 * p.val = t.val * 128 + p.val; omega
  | ⟨1, _⟩ => show win0_2.index t (1 : Fin 2) * 1024 + 1 * k.val = k.val; omega

theorem blkWm : matOf (iblk m c 3 t) = matOf (aWm m c) := by
  obtain ⟨-, -, -, ⟨e0, e1⟩, -⟩ := where_blocks t
  funext k n
  show V m c main_v3 (((cfg0.win 3).blk t).view.emb (ix2 k n)) = V m c main_v3 (ix2 k n)
  refine congrArg _ (funext fun a => Fin.ext ?_)
  match a with
  | ⟨0, _⟩ => show win0_3.index t (0 : Fin 2) * 1024 + 1 * k.val = k.val; omega
  | ⟨1, _⟩ => show win0_3.index t (1 : Fin 2) * 1024 + 1 * n.val = n.val; omega

theorem blkUm : matOf (iblk m c 4 t) = matOf (aUm m c) := by
  obtain ⟨-, -, -, -, ⟨e0, e1⟩, -⟩ := where_blocks t
  funext k n
  show V m c main_v4 (((cfg0.win 4).blk t).view.emb (ix2 k n)) = V m c main_v4 (ix2 k n)
  refine congrArg _ (funext fun a => Fin.ext ?_)
  match a with
  | ⟨0, _⟩ => show win0_4.index t (0 : Fin 2) * 1024 + 1 * k.val = k.val; omega
  | ⟨1, _⟩ => show win0_4.index t (1 : Fin 2) * 1024 + 1 * n.val = n.val; omega

theorem blkBm : (fun k : Fin 1024 => iblk m c 5 t (ix2 (0 : Fin 1) k)) = fun k => aBm m c (ix2 0 k) := by
  obtain ⟨-, -, -, -, -, ⟨e0, e1⟩, -⟩ := where_blocks t
  funext k
  show V m c main_v7 (((cfg0.win 5).blk t).view.emb (ix2 (0 : Fin 1) k)) = V m c main_v7 (ix2 0 k)
  refine congrArg _ (funext fun a => Fin.ext ?_)
  match a with
  | ⟨0, _⟩ => show win0_5.index t (0 : Fin 2) * 1 + 1 * (0 : Fin 1).val = (0 : Fin 1).val; simp only [Fin.val_zero]; omega
  | ⟨1, _⟩ => show win0_5.index t (1 : Fin 2) * 1024 + 1 * k.val = k.val; omega

theorem blkWc : matOf (iblk m c 6 t) = matOf (aWc m c) := by
  obtain ⟨-, -, -, -, -, -, ⟨e0, e1⟩, -⟩ := where_blocks t
  funext k n
  show V m c main_v5 (((cfg0.win 6).blk t).view.emb (ix2 k n)) = V m c main_v5 (ix2 k n)
  refine congrArg _ (funext fun a => Fin.ext ?_)
  match a with
  | ⟨0, _⟩ => show win0_6.index t (0 : Fin 2) * 1024 + 1 * k.val = k.val; omega
  | ⟨1, _⟩ => show win0_6.index t (1 : Fin 2) * 4096 + 1 * n.val = n.val; omega

theorem blkUc : matOf (iblk m c 7 t) = matOf (aUc m c) := by
  obtain ⟨-, -, -, -, -, -, -, ⟨e0, e1⟩, -⟩ := where_blocks t
  funext k n
  show V m c main_v6 (((cfg0.win 7).blk t).view.emb (ix2 k n)) = V m c main_v6 (ix2 k n)
  refine congrArg _ (funext fun a => Fin.ext ?_)
  match a with
  | ⟨0, _⟩ => show win0_7.index t (0 : Fin 2) * 1024 + 1 * k.val = k.val; omega
  | ⟨1, _⟩ => show win0_7.index t (1 : Fin 2) * 4096 + 1 * n.val = n.val; omega

theorem blkBc : (fun n : Fin 4096 => iblk m c 8 t (ix2 (0 : Fin 1) n)) = fun n => aBc m c (ix2 0 n) := by
  obtain ⟨-, -, -, -, -, -, -, -, ⟨e0, e1⟩, -⟩ := where_blocks t
  funext n
  show V m c main_v8 (((cfg0.win 8).blk t).view.emb (ix2 (0 : Fin 1) n)) = V m c main_v8 (ix2 0 n)
  refine congrArg _ (funext fun a => Fin.ext ?_)
  match a with
  | ⟨0, _⟩ => show win0_8.index t (0 : Fin 2) * 1 + 1 * (0 : Fin 1).val = (0 : Fin 1).val; simp only [Fin.val_zero]; omega
  | ⟨1, _⟩ => show win0_8.index t (1 : Fin 2) * 4096 + 1 * n.val = n.val; omega

/-- Where element (p, j) of the result block at point t lands in the result array. -/
theorem landH (p : Fin 128) (j : Fin 1024) : ((cfg0.win 9).blk t).view.emb (ix2 p j) = ix2 (rowAt t p) j := by
  obtain ⟨-, -, -, -, -, -, -, -, -, ⟨e0, e1⟩, -⟩ := where_blocks t
  funext a; apply Fin.ext
  match a with
  | ⟨0, _⟩ => show win0_9.index t (0 : Fin 2) * 128 + 1 * p.val = t.val * 128 + p.val; omega
  | ⟨1, _⟩ => show win0_9.index t (1 : Fin 2) * 1024 + 1 * j.val = j.val; omega

theorem landC (p : Fin 128) (j : Fin 1024) : ((cfg0.win 10).blk t).view.emb (ix2 p j) = ix2 (rowAt t p) j := by
  obtain ⟨-, -, -, -, -, -, -, -, -, -, ⟨e0, e1⟩⟩ := where_blocks t
  funext a; apply Fin.ext
  match a with
  | ⟨0, _⟩ => show win0_10.index t (0 : Fin 2) * 128 + 1 * p.val = t.val * 128 + p.val; omega
  | ⟨1, _⟩ => show win0_10.index t (1 : Fin 2) * 1024 + 1 * j.val = j.val; omega

end Blocks

/-! ## What each point writes back -/

theorem resH_at (c : Dev nD) (r : Fin 8192) (j : Fin 1024) : resH m c (ix2 r j) = cellH (rowOf (aX m c) r) (rowOf (aH m c) r) (rowOf (aC m c) r) (matOf (aWm m c)) (matOf (aUm m c))
      (fun k => aBm m c (ix2 0 k)) (matOf (aWc m c)) (matOf (aUc m c)) (fun n => aBc m c (ix2 0 n)) j := rfl
theorem resC_at (c : Dev nD) (r : Fin 8192) (j : Fin 1024) : resC m c (ix2 r j) = cellC (rowOf (aX m c) r) (rowOf (aH m c) r) (rowOf (aC m c) r) (matOf (aWm m c)) (matOf (aUm m c))
      (fun k => aBm m c (ix2 0 k)) (matOf (aWc m c)) (matOf (aUc m c)) (fun n => aBc m c (ix2 0 n)) j := rfl

/-- Point t writes back block t of `resH`. -/
theorem flushedH_eq (c : Dev nD) (t : Fin cfg0.N) :
    (dats m 0 c).flushed 9 t = ((cfg0.win 9).blk t).view.read (Elt Ideal) (resH m c) := by
  show (cfg0.win 9).cut (grid0.coords t) ((dats m 0 c).after 9 t) = _
  rw [after_H]
  unfold outH
  rw [View.canon_unit_zero hz]
  unfold valH
  simp only [View.ld_unit_zero (S := S128x1024) hz, View.ld_unit_zero (S := S1024x1024) hz, View.ld_unit_zero (S := S1x1024) hz,
    View.ld_unit_zero (S := S1024x4096) hz, View.ld_unit_zero (S := S1x4096) hz]
  funext y
  obtain ⟨p, j, rfl⟩ : ∃ (p : Fin 128) (j : Fin 1024), y = ix2 p j := ⟨y 0, y 1, eq_ix2 y⟩
  refine (PaySpec.hidden_apply (iblk m c 0 t) (iblk m c 1 t) (iblk m c 2 t) (iblk m c 3 t) (iblk m c 4 t) (iblk m c 5 t) (iblk m c 6 t) (iblk m c 7 t) (iblk m c 8 t) p j).trans ?_
  show _ = resH m c (((cfg0.win 9).blk t).view.emb (ix2 p j))
  rw [landH, resH_at, blkX, blkH, blkC, blkWm, blkUm, blkBm, blkWc, blkUc, blkBc]

/-- Point t writes back block t of `resC`. -/
theorem flushedC_eq (c : Dev nD) (t : Fin cfg0.N) :
    (dats m 0 c).flushed 10 t = ((cfg0.win 10).blk t).view.read (Elt Ideal) (resC m c) := by
  show (cfg0.win 10).cut (grid0.coords t) ((dats m 0 c).after 10 t) = _
  rw [after_C]
  unfold outC
  rw [View.canon_unit_zero hz]
  unfold valC
  simp only [View.ld_unit_zero (S := S128x1024) hz, View.ld_unit_zero (S := S1024x1024) hz, View.ld_unit_zero (S := S1x1024) hz,
    View.ld_unit_zero (S := S1024x4096) hz, View.ld_unit_zero (S := S1x4096) hz]
  funext y
  obtain ⟨p, j, rfl⟩ : ∃ (p : Fin 128) (j : Fin 1024), y = ix2 p j := ⟨y 0, y 1, eq_ix2 y⟩
  refine (PaySpec.cell_apply (iblk m c 0 t) (iblk m c 1 t) (iblk m c 2 t) (iblk m c 3 t) (iblk m c 4 t) (iblk m c 5 t) (iblk m c 6 t) (iblk m c 7 t) (iblk m c 8 t) p j).trans ?_
  show _ = resC m c (((cfg0.win 10).blk t).view.emb (ix2 p j))
  rw [landC, resC_at, blkX, blkH, blkC, blkWm, blkUm, blkBm, blkWc, blkUc, blkBc]

/-! ## The blocks tile the result arrays -/

theorem mem_blkH (t : Fin cfg0.N) (i : S8192x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v9_0).slice (win0_9.rect t)).set ↔ _
  rw [View.set_slice_whole, Rect.mem_set_unit]
  exact Iff.rfl

theorem mem_blkC (t : Fin cfg0.N) (i : S8192x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v9_1).slice (win0_10.rect t)).set ↔ _
  rw [View.set_slice_whole, Rect.mem_set_unit]
  exact Iff.rfl

/-- The grid point whose block holds batch row `(i 0)`: the row divided by the block height. -/
def pointOf (i : S8192x1024.Idx) : Fin cfg0.N :=
  ⟨(i 0).val / 128, Nat.lt_of_lt_of_eq (by have := idx2_lt0 i; omega : (i 0).val / 128 < 64) (N_0 : cfg0.N = 64).symm⟩

theorem pointOf_val (i : S8192x1024.Idx) : (pointOf i).val = (i 0).val / 128 := rfl

theorem coverH (i : S8192x1024.Idx) : ∃ t : Fin cfg0.N, (cfg0.win 9).flush t = true ∧ i ∈ ((cfg0.win 9).blk t).view.set := by
  refine ⟨pointOf i, flush0_9 _, ?_⟩
  rw [mem_blkH]
  obtain ⟨-, -, -, -, -, -, -, -, -, ⟨e0, e1⟩, -⟩ := where_blocks (pointOf i)
  have hv := pointOf_val i
  have h0 := idx2_lt0 i
  have h1 := idx2_lt1 i
  intro a
  match a with
  | ⟨0, _⟩ => show win0_9.index (pointOf i) (0 : Fin 2) * 128 ≤ (i 0).val ∧ (i 0).val < win0_9.index (pointOf i) (0 : Fin 2) * 128 + 128; omega
  | ⟨1, _⟩ => show win0_9.index (pointOf i) (1 : Fin 2) * 1024 ≤ (i 1).val ∧ (i 1).val < win0_9.index (pointOf i) (1 : Fin 2) * 1024 + 1024; omega

theorem coverC (i : S8192x1024.Idx) : ∃ t : Fin cfg0.N, (cfg0.win 10).flush t = true ∧ i ∈ ((cfg0.win 10).blk t).view.set := by
  refine ⟨pointOf i, flush0_10 _, ?_⟩
  rw [mem_blkC]
  obtain ⟨-, -, -, -, -, -, -, -, -, -, ⟨e0, e1⟩⟩ := where_blocks (pointOf i)
  have hv := pointOf_val i
  have h0 := idx2_lt0 i
  have h1 := idx2_lt1 i
  intro a
  match a with
  | ⟨0, _⟩ => show win0_10.index (pointOf i) (0 : Fin 2) * 128 ≤ (i 0).val ∧ (i 0).val < win0_10.index (pointOf i) (0 : Fin 2) * 128 + 128; omega
  | ⟨1, _⟩ => show win0_10.index (pointOf i) (1 : Fin 2) * 1024 ≤ (i 1).val ∧ (i 1).val < win0_10.index (pointOf i) (1 : Fin 2) * 1024 + 1024; omega

/-! ## The result arrays after the run -/

theorem finalH (c : Dev nD) : (dats m 0 c).arrAt 9 cfg0.N = resH m c :=
  (dats m 0 c).arrAt_eq_of_cover 9 (resH m c) (fun t _ => flushedH_eq m c t) coverH

theorem finalC (c : Dev nD) : (dats m 0 c).arrAt 10 cfg0.N = resC m c :=
  (dats m 0 c).arrAt_eq_of_cover 10 (resC m c) (fun t _ => flushedC_eq m c t) coverC

/-- Every weakly fair execution of the idealized kernel program ends, without a fault, with the hidden-state result
    at `resH`, the cell-state result at `resC`, and the eighteen argument arrays as launched. -/
theorem run : θ_run defs (onTc (τ := τ) (main (F := Ideal))) ⟨m, fun _ => 0, ρ⟩ fun r => ∀ c : Dev nD,
      r.2.mem ((c.tc : Thread nD τ).loc main_v9_0) = resH m c
      ∧ r.2.mem ((c.tc : Thread nD τ).loc main_v9_1) = resC m c
      ∧ ArgsKept m r c :=
  (θ_run defs _ _).mono (fun r h c => ⟨((h c).1 9).trans (finalH m c), ((h c).1 10).trans (finalC m c), args_kept m r h c⟩)
    (run_main m ρ)

end Cert.KernelIdeal.Val

end
-- ==== Proof.EntryKernelIdeal.lean ====
/-
  What the region finds in the nine arrays its windows stage, read on the extended reals.

  The three batch arrays are untouched by the host prefix.  The prefix changes the float format of the two
  mixing matrices and of the two joined gate matrices: on the extended reals a change of format is the identity, so
  the region finds the mixing matrices as launched and the gate matrices as the join of the four launched ones along
  their second axis.  It reshapes the mixing bias, and the four gate biases joined end to end, into one-row
  matrices: entry (0, k) of the reshaped array is entry k of the vector.
-/
import proofs.«155157_j13288628814422_1_alg».proof.Proof.FrameKernelIdeal
import Idealize.ShloMosaic.Lib.StableHlo.Run
import Idealize.ShloMosaic.Lib.ValueLayout
import Idealize.ShloMosaic.Lib.ValueIdx

noncomputable section

namespace Cert.KernelIdeal.Entry

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- Four square matrices joined along the second axis. -/
def joinW (a b d e : S1024x1024.Idx → EReal) : S1024x4096.Idx → EReal :=
  concatenate S1024x4096 1 [⟨S1024x1024, a⟩, ⟨S1024x1024, b⟩, ⟨S1024x1024, d⟩, ⟨S1024x1024, e⟩]
    concatenates_S1024x1024_S1024x1024_S1024x1024_S1024x1024_S1024x4096_d1

/-- Four vectors joined end to end. -/
def joinB (a b d e : S1024.Idx → EReal) : S4096.Idx → EReal :=
  concatenate S4096 0 [⟨S1024, a⟩, ⟨S1024, b⟩, ⟨S1024, d⟩, ⟨S1024, e⟩] concatenates_S1024_S1024_S1024_S1024_S4096_d0

theorem found_X : V m c main_arg0 = m ((c : Thread nD τ).loc main_arg0) := V_of_not_written m c main_arg0 (by decide) (by decide) (by decide) (by decide) (by decide) (by decide) (by decide) (by decide) (by decide)
theorem found_H : V m c main_arg1 = m ((c : Thread nD τ).loc main_arg1) := V_of_not_written m c main_arg1 (by decide) (by decide) (by decide) (by decide) (by decide) (by decide) (by decide) (by decide) (by decide)
theorem found_C : V m c main_arg2 = m ((c : Thread nD τ).loc main_arg2) := V_of_not_written m c main_arg2 (by decide) (by decide) (by decide) (by decide) (by decide) (by decide) (by decide) (by decide) (by decide)

theorem found_Wm : @Eq (S1024x1024.Idx → EReal) (V m c main_v3) (m ((c : Thread nD τ).loc main_arg3)) := by
  dsimp only [V, hostOps0]; after_results; rfl

theorem found_Um : @Eq (S1024x1024.Idx → EReal) (V m c main_v4) (m ((c : Thread nD τ).loc main_arg4)) := by
  dsimp only [V, hostOps0]; after_results; rfl

theorem found_Wc : @Eq (S1024x4096.Idx → EReal) (V m c main_v5)
    (joinW (m ((c : Thread nD τ).loc main_arg6)) (m ((c : Thread nD τ).loc main_arg9)) (m ((c : Thread nD τ).loc main_arg12)) (m ((c : Thread nD τ).loc main_arg15))) := by
  dsimp only [V, hostOps0]; after_results; rfl

theorem found_Uc : @Eq (S1024x4096.Idx → EReal) (V m c main_v6)
    (joinW (m ((c : Thread nD τ).loc main_arg7)) (m ((c : Thread nD τ).loc main_arg10)) (m ((c : Thread nD τ).loc main_arg13)) (m ((c : Thread nD τ).loc main_arg16))) := by
  dsimp only [V, hostOps0]; after_results; rfl

theorem found_Bm (k : Fin 1024) : @Eq EReal (V m c main_v7 (ix2 (0 : Fin 1) k)) (m ((c : Thread nD τ).loc main_arg5) (ix1 k)) := by
  have e : @Eq (S1x1024.Idx → EReal) (V m c main_v7)
      (shapeCast S1x1024 (m ((c : Thread nD τ).loc main_arg5) : S1024.Idx → EReal) shapeCasts_S1024_S1x1024) := by
    dsimp only [V, hostOps0]; after_results; rfl
  exact (congrFun e _).trans (shapeCast_a_1a_apply _ _ (0 : Fin 1) k)

theorem found_Bc (n : Fin 4096) : @Eq EReal (V m c main_v8 (ix2 (0 : Fin 1) n))
    (joinB (m ((c : Thread nD τ).loc main_arg8)) (m ((c : Thread nD τ).loc main_arg11)) (m ((c : Thread nD τ).loc main_arg14)) (m ((c : Thread nD τ).loc main_arg17)) (ix1 n)) := by
  have e : @Eq (S1x4096.Idx → EReal) (V m c main_v8)
      (shapeCast S1x4096 (joinB (m ((c : Thread nD τ).loc main_arg8)) (m ((c : Thread nD τ).loc main_arg11)) (m ((c : Thread nD τ).loc main_arg14)) (m ((c : Thread nD τ).loc main_arg17))) shapeCasts_S4096_S1x4096) := by
    dsimp only [V, hostOps0]; after_results
    simp only [nary_result_ne (h := (by decide : main_arg8 ≠ main_v0)), nary_result_ne (h := (by decide : main_arg8 ≠ main_v1)),
      nary_result_ne (h := (by decide : main_arg11 ≠ main_v0)), nary_result_ne (h := (by decide : main_arg11 ≠ main_v1)),
      nary_result_ne (h := (by decide : main_arg14 ≠ main_v0)), nary_result_ne (h := (by decide : main_arg14 ≠ main_v1)),
      nary_result_ne (h := (by decide : main_arg17 ≠ main_v0)), nary_result_ne (h := (by decide : main_arg17 ≠ main_v1))]
    rfl
  exact (congrFun e _).trans (shapeCast_a_1a_apply _ _ (0 : Fin 1) n)

end Cert.KernelIdeal.Entry

end
-- ==== Proof.RefIsSpec.lean ====
/-
  The reference program, read one output element at a time, computes the row formulas of the specification:
  element (r, j) of its hidden result is `cellH` and of its cell result `cellC` of row r of the three batch arrays,
  with the four gate matrices joined along their second axis (and the four gate biases joined end to end) exactly
  as the program joins them.
-/
import proofs.«155157_j13288628814422_1_alg».proof.Proof.Gen.ReferenceIdeal.Read
import proofs.«155157_j13288628814422_1_alg».proof.Proof.Spec

noncomputable section

namespace Cert.ReferenceIdeal.RefSpec

open Cert.ReferenceIdeal Cert.ReferenceIdeal.Read Idealize.ShloMosaic MulLstm

variable (x0 x1 x2 : (⟨S8192x1024, .f32⟩ : BufTy).Contents (Elt Ideal)) (x3 x4 : (⟨S1024x1024, .f32⟩ : BufTy).Contents (Elt Ideal))
  (x5 : (⟨S1024, .f32⟩ : BufTy).Contents (Elt Ideal)) (x6 x7 : (⟨S1024x1024, .f32⟩ : BufTy).Contents (Elt Ideal))
  (x8 : (⟨S1024, .f32⟩ : BufTy).Contents (Elt Ideal)) (x9 x10 : (⟨S1024x1024, .f32⟩ : BufTy).Contents (Elt Ideal))
  (x11 : (⟨S1024, .f32⟩ : BufTy).Contents (Elt Ideal)) (x12 x13 : (⟨S1024x1024, .f32⟩ : BufTy).Contents (Elt Ideal))
  (x14 : (⟨S1024, .f32⟩ : BufTy).Contents (Elt Ideal)) (x15 x16 : (⟨S1024x1024, .f32⟩ : BufTy).Contents (Elt Ideal))
  (x17 : (⟨S1024, .f32⟩ : BufTy).Contents (Elt Ideal))

/-! ## The index functions of the two matrix products, at an index given by its coordinates -/

private theorem lidx0 (r : Fin 8192) (k k' : Fin 1024) : lidx_main_v0 (ValueIdx.ix2 r k) k' = ValueIdx.ix2 r k' :=
  funext fun a => by match a with | ⟨0, _⟩ => rfl | ⟨1, _⟩ => rfl
private theorem ridx0 (r : Fin 8192) (k k' : Fin 1024) : ridx_main_v0 (ValueIdx.ix2 r k) k' = ValueIdx.ix2 k' k :=
  funext fun a => by match a with | ⟨0, _⟩ => rfl | ⟨1, _⟩ => rfl
private theorem lidx1 (r : Fin 8192) (k k' : Fin 1024) : lidx_main_v1 (ValueIdx.ix2 r k) k' = ValueIdx.ix2 r k' :=
  funext fun a => by match a with | ⟨0, _⟩ => rfl | ⟨1, _⟩ => rfl
private theorem ridx1 (r : Fin 8192) (k k' : Fin 1024) : ridx_main_v1 (ValueIdx.ix2 r k) k' = ValueIdx.ix2 k' k :=
  funext fun a => by match a with | ⟨0, _⟩ => rfl | ⟨1, _⟩ => rfl
private theorem idx34 (r : Fin 8192) (k : Fin 1024) : idx_main_v3 (idx_main_v4 (ValueIdx.ix2 r k)) = ValueIdx.ix1 k :=
  funext fun a => by match a with | ⟨0, _⟩ => rfl

/-- The transformed input at row `r`, column `k`. -/
private theorem mix_apply (r : Fin 8192) (k : Fin 1024) :
    val_main_v6 (F := Ideal) x0 x1 x3 x4 x5 (ValueIdx.ix2 r k)
      = mix (rowOf x0 r) (rowOf x1 r) (matOf x3) (matOf x4) (vecOf x5) k := by
  rw [val_main_v6_apply, val_main_v5_apply, val_main_v2_apply, val_main_v0_apply, val_main_v1_apply,
    val_main_v4_apply, val_main_v3_apply]
  simp only [lidx0, ridx0, lidx1, ridx1, idx34]
  rfl

private theorem lidx10 (r : Fin 8192) (n : Fin 4096) (k : Fin 1024) : lidx_main_v10 (ValueIdx.ix2 r n) k = ValueIdx.ix2 r k :=
  funext fun a => by match a with | ⟨0, _⟩ => rfl | ⟨1, _⟩ => rfl
private theorem ridx10 (r : Fin 8192) (n : Fin 4096) (k : Fin 1024) : ridx_main_v10 (ValueIdx.ix2 r n) k = ValueIdx.ix2 k n :=
  funext fun a => by match a with | ⟨0, _⟩ => rfl | ⟨1, _⟩ => rfl
private theorem lidx11 (r : Fin 8192) (n : Fin 4096) (k : Fin 1024) : lidx_main_v11 (ValueIdx.ix2 r n) k = ValueIdx.ix2 r k :=
  funext fun a => by match a with | ⟨0, _⟩ => rfl | ⟨1, _⟩ => rfl
private theorem ridx11 (r : Fin 8192) (n : Fin 4096) (k : Fin 1024) : ridx_main_v11 (ValueIdx.ix2 r n) k = ValueIdx.ix2 k n :=
  funext fun a => by match a with | ⟨0, _⟩ => rfl | ⟨1, _⟩ => rfl
private theorem idx1314 (r : Fin 8192) (n : Fin 4096) : idx_main_v13 (idx_main_v14 (ValueIdx.ix2 r n)) = ValueIdx.ix1 n :=
  funext fun a => by match a with | ⟨0, _⟩ => rfl

/-- The joined gates' pre-activations at row `r`, column `n` of the joined axis. -/
private theorem gate_apply (r : Fin 8192) (n : Fin 4096) :
    val_main_v15 (F := Ideal) x0 x1 x3 x4 x5 x6 x7 x8 x9 x10 x11 x12 x13 x14 x15 x16 x17 (ValueIdx.ix2 r n)
      = gate (rowOf x0 r) (rowOf x1 r) (matOf x3) (matOf x4) (vecOf x5)
          (matOf (val_main_v7 (F := Ideal) x6 x9 x12 x15)) (matOf (val_main_v8 (F := Ideal) x7 x10 x13 x16))
          (vecOf (val_main_v9 (F := Ideal) x8 x11 x14 x17)) n := by
  rw [val_main_v15_apply, val_main_v12_apply, val_main_v10_apply, val_main_v11_apply, val_main_v14_apply,
    val_main_v13_apply]
  simp only [lidx10, ridx10, lidx11, ridx11, idx1314, mix_apply]
  rfl

/-! ## The four column slices, at an index given by its coordinates -/

private theorem idx16 (r : Fin 8192) (j : Fin 1024) : idx_main_v16 (ValueIdx.ix2 r j) = ValueIdx.ix2 r (colI j) :=
  funext fun a => by match a with | ⟨0, _⟩ => rfl | ⟨1, _⟩ => rfl
private theorem idx23 (r : Fin 8192) (j : Fin 1024) : idx_main_v23 (ValueIdx.ix2 r j) = ValueIdx.ix2 r (colF j) :=
  funext fun a => by match a with | ⟨0, _⟩ => rfl | ⟨1, _⟩ => rfl
private theorem idx30 (r : Fin 8192) (j : Fin 1024) : idx_main_v30 (ValueIdx.ix2 r j) = ValueIdx.ix2 r (colO j) :=
  funext fun a => by match a with | ⟨0, _⟩ => rfl | ⟨1, _⟩ => rfl
private theorem idx37 (r : Fin 8192) (j : Fin 1024) : idx_main_v37 (ValueIdx.ix2 r j) = ValueIdx.ix2 r (colG j) :=
  funext fun a => by match a with | ⟨0, _⟩ => rfl | ⟨1, _⟩ => rfl

/-- The host's spelling of the logistic function, with its constant one given by the bit pattern of the float 1.0. -/
private theorem sigmoid_spelled (x : EReal) :
    Ideal.div (Ideal.ofBits .f32 0x3F800000#32) (Ideal.ofBits .f32 0x3F800000#32 + Ideal.exp (-x)) = Ideal.logistic x := by
  rw [ofBits_one]; exact logistic_spelled x

/-- The new cell state at row `r`, column `j`. -/
theorem cell_apply (r : Fin 8192) (j : Fin 1024) :
    val_main_v41 (F := Ideal) x0 x1 x2 x3 x4 x5 x6 x7 x8 x9 x10 x11 x12 x13 x14 x15 x16 x17 (ValueIdx.ix2 r j)
      = cellC (rowOf x0 r) (rowOf x1 r) (rowOf x2 r) (matOf x3) (matOf x4) (vecOf x5)
          (matOf (val_main_v7 (F := Ideal) x6 x9 x12 x15)) (matOf (val_main_v8 (F := Ideal) x7 x10 x13 x16))
          (vecOf (val_main_v9 (F := Ideal) x8 x11 x14 x17)) j := by
  simp only [val_main_v41_apply, val_main_v39_apply, val_main_v40_apply, val_main_v29_apply, val_main_v28_apply,
    val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v38_apply, val_main_v37_apply,
    val_main_cst_apply, val_main_cst_0_apply, val_main_cst_1_apply, val_main_cst_2_apply,
    idx16, idx23, idx37, gate_apply,
    Ideal.addf_def, Ideal.mulf_def, Ideal.hostDivf_def, Ideal.ofBits_def, Ideal.hostUnary_exp_def,
    Ideal.hostUnary_tanh_def, Ideal.hostNegf_def, Ideal.negf_def, sigmoid_spelled]
  rfl

/-- The new hidden state at row `r`, column `j`. -/
theorem hidden_apply (r : Fin 8192) (j : Fin 1024) :
    val_main_v43 (F := Ideal) x0 x1 x2 x3 x4 x5 x6 x7 x8 x9 x10 x11 x12 x13 x14 x15 x16 x17 (ValueIdx.ix2 r j)
      = cellH (rowOf x0 r) (rowOf x1 r) (rowOf x2 r) (matOf x3) (matOf x4) (vecOf x5)
          (matOf (val_main_v7 (F := Ideal) x6 x9 x12 x15)) (matOf (val_main_v8 (F := Ideal) x7 x10 x13 x16))
          (vecOf (val_main_v9 (F := Ideal) x8 x11 x14 x17)) j := by
  simp only [val_main_v43_apply, val_main_v42_apply, val_main_v36_apply, val_main_v35_apply, val_main_v34_apply,
    val_main_v33_apply, val_main_v32_apply, val_main_v31_apply, val_main_v30_apply,
    val_main_cst_3_apply, val_main_cst_4_apply, idx30, gate_apply, cell_apply,
    Ideal.addf_def, Ideal.mulf_def, Ideal.hostDivf_def, Ideal.ofBits_def, Ideal.hostUnary_exp_def,
    Ideal.hostUnary_tanh_def, Ideal.hostNegf_def, Ideal.negf_def, sigmoid_spelled]
  rfl

end Cert.ReferenceIdeal.RefSpec

end
-- ==== Proof.Bridge.lean ====
/-
  The two programs meet in the row formulas.

  Read at element (r, j), the reference's hidden-state and cell-state stages are `cellH` and `cellC` of row r of the
  three batch arrays with the launched weights, the four gate matrices joined along their second axis and the four
  gate biases joined end to end.  The kernel program's result arrays are the same formulas of the arrays its region
  finds — and the region finds the batch arrays and the mixing weights as launched, the gate matrices as that same
  join (a change of float format being the identity on the extended reals), and each bias as row 0 of a one-row
  matrix holding the same vector.  So from the same launch contents both programs' results are one function.
-/
import proofs.«155157_j13288628814422_1_alg».proof.Proof.ValueKernelIdeal
import proofs.«155157_j13288628814422_1_alg».proof.Proof.EntryKernelIdeal
import proofs.«155157_j13288628814422_1_alg».proof.Proof.RefIsSpec

noncomputable section

namespace Cert.Bridge

open Idealize.ShloMosaic Idealize.ShloMosaic.TcCoe Idealize.SL.Sem Idealize.ShloMosaic.ValueIdx MulLstm
open Cert.KernelIdeal.Val Cert.KernelIdeal.Entry Cert.KernelIdeal.Hand

variable (m : (ℓ : Loc Cert.KernelIdeal.nD Cert.KernelIdeal.τ Cert.KernelIdeal.sig) → Buf (Elt Ideal) ℓ) (c : Dev Cert.KernelIdeal.nD)

section Found
/-- The arrays the region finds, in the reference's terms. -/
theorem eX : aX m c = (m ((c.tc : Thread Cert.KernelIdeal.nD Cert.KernelIdeal.τ).loc Cert.KernelIdeal.main_arg0)) := found_X m c
theorem eH : aH m c = (m ((c.tc : Thread Cert.KernelIdeal.nD Cert.KernelIdeal.τ).loc Cert.KernelIdeal.main_arg1)) := found_H m c
theorem eC : aC m c = (m ((c.tc : Thread Cert.KernelIdeal.nD Cert.KernelIdeal.τ).loc Cert.KernelIdeal.main_arg2)) := found_C m c
theorem eWm : aWm m c = (m ((c.tc : Thread Cert.KernelIdeal.nD Cert.KernelIdeal.τ).loc Cert.KernelIdeal.main_arg3)) := found_Wm m c
theorem eUm : aUm m c = (m ((c.tc : Thread Cert.KernelIdeal.nD Cert.KernelIdeal.τ).loc Cert.KernelIdeal.main_arg4)) := found_Um m c
theorem eBm : (fun k : Fin 1024 => aBm m c (ix2 (0 : Fin 1) k)) = vecOf (m ((c.tc : Thread Cert.KernelIdeal.nD Cert.KernelIdeal.τ).loc Cert.KernelIdeal.main_arg5)) := funext fun k => found_Bm m c k
theorem eWc : aWc m c = Cert.ReferenceIdeal.Read.val_main_v7 (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) :=
  (found_Wc m c).trans rfl
theorem eUc : aUc m c = Cert.ReferenceIdeal.Read.val_main_v8 (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) :=
  (found_Uc m c).trans rfl
theorem eBc : (fun n : Fin 4096 => aBc m c (ix2 (0 : Fin 1) n))
    = vecOf (Cert.ReferenceIdeal.Read.val_main_v9 (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg17))) :=
  funext fun n => (found_Bc m c n).trans rfl
end Found

/-- The reference's hidden-state stage at the kernel program's launch contents is the kernel program's hidden-state result. -/
theorem refH_eq : Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) = resH m c := by
  funext i
  obtain ⟨r, j, rfl⟩ : ∃ (r : Fin 8192) (j : Fin 1024), i = ix2 r j := ⟨i 0, i 1, eq_ix2 i⟩
  rw [Cert.ReferenceIdeal.RefSpec.hidden_apply, resH_at, eX, eH, eC, eWm, eUm, eBm, eWc, eUc, eBc]

/-- The reference's cell-state stage at the kernel program's launch contents is the kernel program's cell-state result. -/
theorem refC_eq : Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) = resC m c := by
  funext i
  obtain ⟨r, j, rfl⟩ : ∃ (r : Fin 8192) (j : Fin 1024), i = ix2 r j := ⟨i 0, i 1, eq_ix2 i⟩
  rw [Cert.ReferenceIdeal.RefSpec.cell_apply, resC_at, eX, eH, eC, eWm, eUm, eBm, eWc, eUc, eBc]

end Cert.Bridge

end
-- ==== Proof.lean ====
/-
  A multiplicative LSTM cell step as a Pallas kernel over batch blocks of 128 rows, against the plain reference.

  Both programs compute, for every batch row r, the row formulas of Proof/Spec.lean: the transformed input
  ((x·Wm + h·Um) + bm) ∘ x, the four gate pre-activations (x̃·W + h·U) + b over the joined gate weights, the new cell
  state σ(f)·c + σ(i)·tanh(g) and the new hidden state σ(o)·tanh(c').  The kernel casts its matrix operands to a
  narrower float format, which on the extended reals is the identity; its logistic is one operation where the
  reference spells one over one plus the exponential of the negation, which is the same function by definition;
  every sum and product is grouped the same way in both.  So no algebraic law, and no use of the inputs' finiteness,
  is needed: the two results are one function of the launch contents.

  The word-level kernel program and the idealized one run to the end and keep their arguments (one pipelined region
  after nine host operations: Proof/FrameKernel.lean, Proof/FrameKernelIdeal.lean); the reference's frame is its run
  with the results dropped; the idealization rewrote nothing, so that conjunct is trivial; the value conjunct puts
  the kernel program's run (Proof/ValueKernelIdeal.lean) beside the reference's and closes by Proof/Bridge.lean.
-/
import proofs.«155157_j13288628814422_1_alg».proof.Defs
import proofs.«155157_j13288628814422_1_alg».proof.Proof.Gen.Kernel
import proofs.«155157_j13288628814422_1_alg».proof.Proof.Gen.KernelIdeal
import proofs.«155157_j13288628814422_1_alg».proof.Proof.Gen.ReferenceIdeal
import proofs.«155157_j13288628814422_1_alg».proof.Proof.Gen.Pre_finite_inputs
import proofs.«155157_j13288628814422_1_alg».proof.Proof.Gen.ReferenceIdeal.Run
import proofs.«155157_j13288628814422_1_alg».proof.Proof.Gen.ReferenceIdeal.Read
import proofs.«155157_j13288628814422_1_alg».proof.Proof.FrameKernel
import proofs.«155157_j13288628814422_1_alg».proof.Proof.FrameKernelIdeal
import proofs.«155157_j13288628814422_1_alg».proof.Proof.ValueKernelIdeal
import proofs.«155157_j13288628814422_1_alg».proof.Proof.Bridge
import Idealize.ShloMosaic.Adequacy
import Idealize.ShloMosaic.Init

noncomputable section

namespace Cert.Proof

open Idealize.ShloMosaic Idealize.ShloMosaic.TcCoe Idealize.SL.Sem

section
variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

/-- The reference is host operations only: its frame is its run with the two results dropped. -/
theorem frame_r : Cert.frame_ReferenceIdeal := fun m ρ _ =>
  (θ_run Cert.ReferenceIdeal.defs _ _).mono (fun _ h c => (h c).2.2) (Cert.ReferenceIdeal.Value.run (F := Ideal) m ρ)

/-- From launch contents that agree on the eighteen arguments, both idealized programs end with the hidden-state
    result at `resH` and the cell-state result at `resC` of the kernel program's launch contents. -/
theorem algebraic : Cert.algebraic_KernelIdeal_ReferenceIdeal := by
  intro m ρ m' ρ' _ hagree
  refine ⟨fun c => Cert.KernelIdeal.Val.resH m c, fun c => Cert.KernelIdeal.Val.resC m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17⟩ := hagree c
    rw [Cert.ReferenceIdeal.Read.val_main_v43_eq, e0, e1, e2, e3, e4, e5, e6, e7, e8, e9, e10, e11, e12, e13, e14, e15, e16, e17]
    exact Cert.Bridge.refH_eq m c
  · obtain ⟨e0, e1, e2, e3, e4, e5, e6, e7, e8, e9, e10, e11, e12, e13, e14, e15, e16, e17⟩ := hagree c
    rw [Cert.ReferenceIdeal.Read.val_main_v41_eq, e0, e1, e2, e3, e4, e5, e6, e7, e8, e9, e10, e11, e12, e13, e14, e15, e16, e17]
    exact Cert.Bridge.refC_eq m c

end

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
